-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S8192 .f32 .bf16
  ∧ IdealRules.truncf_extf.Statement Cert.KernelIdeal.S8192 .f32 .bf16
  ∧ IdealRules.truncf_extf.Statement Cert.KernelIdeal.S8192 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S512 : Shape := ⟨1, ![512]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S16777216 .f32) (main_arg1 : IVec S16777216 32) (main_arg2 : FVec F S512 .f32) (main_arg3 : FVec F S512 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S16777216 : Shape := ⟨1, ![16777216]⟩
abbrev S512 : Shape := ⟨1, ![512]⟩
abbrev S2x7x512 : Shape := ⟨3, ![2, 7, 512]⟩
abbrev S262144 : Shape := ⟨1, ![262144]⟩
abbrev S1x7x512 : Shape := ⟨3, ![1, 7, 512]⟩
abbrev S7x512 : Shape := ⟨2, ![7, 512]⟩
abbrev S8192x512 : Shape := ⟨2, ![8192, 512]⟩
abbrev S8192 : Shape := ⟨1, ![8192]⟩
abbrev S8192x1 : Shape := ⟨2, ![8192, 1]⟩
abbrev S8192x7 : Shape := ⟨2, ![8192, 7]⟩
abbrev S1x512 : Shape := ⟨2, ![1, 512]⟩
abbrev S_ : Shape := ⟨0, ![]⟩

abbrev nBuf : Space → Nat
  | .hbm => 61
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S512, .f32⟩
  | .hbm, ⟨3, _⟩ => ⟨S512, .f32⟩
  | .hbm, ⟨4, _⟩ => ⟨S2x7x512, .f32⟩
  | .hbm, ⟨5, _⟩ => ⟨S1x7x512, .f32⟩
  | .hbm, ⟨6, _⟩ => ⟨S7x512, .f32⟩
  | .hbm, ⟨7, _⟩ => ⟨S1x7x512, .f32⟩
  | .hbm, ⟨8, _⟩ => ⟨S7x512, .f32⟩
  | .hbm, ⟨9, _⟩ => ⟨S7x512, .f32⟩
  | .hbm, ⟨10, _⟩ => ⟨S1x512, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .local _ .vmem, ⟨0, _⟩ => ⟨S262144, .f32⟩
  | .local _ .vmem, ⟨1, _⟩ => ⟨S262144, .f32⟩
  | .local _ .vmem, ⟨2, _⟩ => ⟨S262144, .i32⟩
  | .local _ .vmem, ⟨3, _⟩ => ⟨S262144, .i32⟩
  | .local _ .vmem, ⟨4, _⟩ => ⟨S1x7x512, .f32⟩
  | .local _ .vmem, ⟨5, _⟩ => ⟨S1x7x512, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c32_i32 : BitVec 32 := 32#32
  let v5 : BitVec 32 := Scalar.addi c0_i32_1 c32_i32
  let c1_i32 : BitVec 32 := 1#32
  ⟨c0_i32_1, v5, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v6 : BitVec 32 := Scalar.muli arg5 c1_i32_3
  let v7 : BitVec 32 := Scalar.addi c0_i32_4 v6
  let c8192_i32 : BitVec 32 := 8192#32
  let v8 : BitVec 32 := Scalar.muli v7 c8192_i32
  v8
def k0_off1 (k0_t1 : Fin k0_t1_loop.trips) : Fin 1 → Nat :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v6 : BitVec 32 := Scalar.muli arg5 c1_i32_3
  let v7 : BitVec 32 := Scalar.addi c0_i32_4 v6
  let c8192_i32 : BitVec 32 := 8192#32
  let v8 : BitVec 32 := Scalar.muli v7 c8192_i32
  let v9 : BitVec 32 := v8
  let v10 : Index := Scalar.indexCast v9
  ![v10.toNat]
def cc0_transform_0 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_1 (i : grid0.Coords) : Fin 1 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S262144 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x7x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x7x512_S1x7x512_0_0_0 : ∀ a, (![0, 0, 0] : Fin 3 → Nat) a + S1x7x512.size a ≤ S1x7x512.size a
  h_S1x7x512 : 0 < S1x7x512.numel
  shapeCasts_S1x7x512_S7x512 : S1x7x512.ShapeCasts S7x512
  shapeCasts_S7x512_S1x7x512 : S7x512.ShapeCasts S1x7x512
  iota_S8192x512_d1_w32 : S8192x512.Iotas .tc 32 [1]
  h_S8192 : 0 < S8192.numel
  shapeCasts_S8192_S8192x1 : S8192.ShapeCasts S8192x1
  broadcasts_S8192x1_S8192x512 : S8192x1.Broadcasts S8192x512
  natLt_1_32 : 1 < 32
  bitsLt_bf16_f32 : FTy.bits .bf16 < FTy.bits .f32
  concatenates_S8192x1_S8192x1_S8192x1_S8192x1_S8192x1_S8192x1_S8192x1_S8192x7_d1 : Shape.Concatenates [S8192x1, S8192x1, S8192x1, S8192x1, S8192x1, S8192x1, S8192x1] S8192x7 1
  slices_S2x7x512_S1x7x512_0_0_0 : S2x7x512.Slices ![0, 0, 0] S1x7x512
  slices_S2x7x512_S1x7x512_1_0_0 : S2x7x512.Slices ![1, 0, 0] S1x7x512
  slices_S7x512_S1x512_0_0 : S7x512.Slices ![0, 0] S1x512
  shapeCasts_S1x512_S512 : S1x512.ShapeCasts S512
  bcast_S_S512 : S_.BroadcastsInDim S512 (![] : Fin 0 → Fin S512.rank)
  slices_S7x512_S1x512_1_0 : S7x512.Slices ![1, 0] S1x512
  slices_S7x512_S1x512_2_0 : S7x512.Slices ![2, 0] S1x512
  slices_S7x512_S1x512_3_0 : S7x512.Slices ![3, 0] S1x512
  slices_S7x512_S1x512_4_0 : S7x512.Slices ![4, 0] S1x512
  slices_S7x512_S1x512_5_0 : S7x512.Slices ![5, 0] S1x512
  slices_S7x512_S1x512_6_0 : S7x512.Slices ![6, 0] S1x512
  reducesTo_S512_S_d0 : S512.ReducesTo [0] S_
  h_S_ : 0 < S_.numel
  dot_S8192x7_S8192x512_S7x512_0_0_1_1_n_n_wf : DotDims.WF S8192x7 S8192x512 S7x512 [0] [0] [1] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S8192.size a ≤ S262144.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S16777216.size a
  hwx0_0 : ∀ i : grid0.Coords, EltTy.bits .f32 = 32 ∨ (Rect.block (s := S16777216) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S16777216.size a
  hwx0_1 : ∀ i : grid0.Coords, EltTy.bits .i32 = 32 ∨ (Rect.block (s := S16777216) S262144.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x7x512.size a ≤ S2x7x512.size a
  hwx0_2 : ∀ i : grid0.Coords, EltTy.bits .f32 = 32 ∨ (Rect.block (s := S2x7x512) S1x7x512.size (cc0_transform_2 i) (hinb0_2 i)).WholeWords (EltTy.packing .f32)

variable [Facts₀]

def dot_S8192x7_S8192x512_S7x512_0_0_1_1_n_n : DotDims S8192x7 S8192x512 S7x512 where
  lhsContracting := [0]
  rhsContracting := [0]
  lhsNonContracting := [1]
  rhsNonContracting := [1]
  lhsBatch := []
  rhsBatch := []
  wf := dot_S8192x7_S8192x512_S7x512_0_0_1_1_n_n_wf

abbrev win0_0 : Pipeline.Window sig grid0 :=
  Pipeline.Window.ofSpec (Memref.whole main_arg0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x7x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16777216 : Shape := ⟨1, ![16777216]⟩
abbrev S512 : Shape := ⟨1, ![512]⟩
abbrev S_ : Shape := ⟨0, ![]⟩
abbrev S16777216x1 : Shape := ⟨2, ![16777216, 1]⟩

abbrev nBuf : Space → Nat
  | .hbm => 67
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S512, .f32⟩
  | .hbm, ⟨8, _⟩ => ⟨S16777216x1, .i32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S16777216x1, .i32⟩
  | .hbm, ⟨16, _⟩ => ⟨S512, .f32⟩
  | .hbm, ⟨17, _⟩ => ⟨S512, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S16777216, .f32⟩
  | .hbm, ⟨23, _⟩ => ⟨S_, .f32⟩
  | .hbm, ⟨24, _⟩ => ⟨S512, .f32⟩
  | .hbm, ⟨25, _⟩ => ⟨S16777216x1, .i32⟩
  | .hbm, ⟨26, _⟩ => ⟨S512, .f32⟩
  | .hbm, ⟨27, _⟩ => ⟨S512, .f32⟩
  | .hbm, ⟨28, _⟩ => ⟨S_, .i32⟩
  | .hbm, ⟨29, _⟩ => ⟨S16777216, .i32⟩
  | .hbm, ⟨30, _⟩ => ⟨S16777216, .i1⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S16777216, .i32⟩
  | .hbm, ⟨35, _⟩ => ⟨S16777216x1, .i32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S512, .f32⟩
  | .hbm, ⟨41, _⟩ => ⟨S16777216x1, .i32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S512, .f32⟩
  | .hbm, ⟨55, _⟩ => ⟨S512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S512 : S_.BroadcastsInDim S512 (![] : Fin 0 → Fin S512.rank)
  bcast_S16777216_S16777216x1_0 : S16777216.BroadcastsInDim S16777216x1 (![0] : Fin 1 → Fin S16777216x1.rank)
  reducesTo_S512_S_d0 : S512.ReducesTo [0] S_
  h_S_ : 0 < S_.numel
  scatter_S512_S16777216x1_S16777216_n_0_0_1_wf : ScatterDims.WF S512 S16777216x1 S16777216 [] [0] [0] 1
  gather_S512_S16777216x1_S16777216_n_0_n_n_0_1_1_wf : GatherDims.WF S512 S16777216x1 S16777216 [] [0] [] [0] [] 1 ![1]

variable [Facts₀]

def scatter_S512_S16777216x1_S16777216_n_0_0_1 : ScatterDims S512 S16777216x1 S16777216 where
  updateWindowDims := []
  insertedWindowDims := [0]
  scatterDimsToOperandDims := [0]
  indexVectorDim := 1
  wf := scatter_S512_S16777216x1_S16777216_n_0_0_1_wf
def gather_S512_S16777216x1_S16777216_n_0_n_n_0_1_1 : GatherDims S512 S16777216x1 S16777216 where
  offsetDims := []
  collapsedSliceDims := [0]
  operandBatchingDims := []
  startIndicesBatchingDims := []
  startIndexMap := [0]
  indexVectorDim := 1
  sliceSizes := ![1]
  wf := gather_S512_S16777216x1_S16777216_n_0_n_n_0_1_1_wf

class Facts : Prop extends Facts₀ where

variable [Facts]
-- ==== Proof.KLoop.lean ====
/-
  What the kernel body leaves in its output block, as a fold over the trips of its inner loop.

  The body's inner loop runs 32 trips; trip `k` loads the `k`-th 8192-element chunk of the staged value block and
  of the staged index block, loads the whole 1×7×512 accumulator block, and stores the whole block back at the
  payload of those three loads. So the block after `n` trips is the `n`-fold of that payload from the block the
  loop found. At a core's first grid point the body first zero-fills the block (the fold starts from zeros); at
  every other point it starts from what the point before left.
-/
import proofs.«426420_j43104291782998_2_alg».proof.Proof.Gen.KernelIdeal.Frame
import Idealize.ShloMosaic.Lib.Pipeline.Value

set_option maxRecDepth 16384

noncomputable section

namespace Cert.KernelIdeal.KLoop

open Idealize.ShloMosaic Idealize.ShloMosaic.TcCoe Idealize.ShloMosaic.Tactic
open Idealize.SL Idealize.SL.Sem
open Cert.KernelIdeal Cert.KernelIdeal.Gen

variable {F : FTy → Type} [FloatOps F]

/-- The accumulator block's rectangle starts at the origin. -/
theorem hz3 : (![0, 0, 0] : Fin S1x7x512.rank → Nat) = fun _ => 0 := by
  funext a; fin_cases a <;> rfl

/-- One trip: the payload of the trip's chunk of each staged block and of the block found. -/
def step (x0 : Vec F S262144 .f32) (x1 : Vec F S262144 .i32) (k : Fin k0_t1_loop.trips) (a : Vec F S1x7x512 .f32) :
    Vec F S1x7x512 .f32 :=
  k0_pay2 (View.ld x0 (Rect.unit (s := S262144) (k0_off1 k) S8192.size (Facts₀.k0_off1_inb k)))
    (View.ld x1 (Rect.unit (s := S262144) (k0_off1 k) S8192.size (Facts₀.k0_off1_inb k))) a

/-- The block after `n` trips from `a0`. -/
def accN (x0 : Vec F S262144 .f32) (x1 : Vec F S262144 .i32) (a0 : Vec F S1x7x512 .f32) : ℕ → Vec F S1x7x512 .f32
  | 0 => a0
  | n + 1 => if h : n < k0_t1_loop.trips then step x0 x1 ⟨n, h⟩ (accN x0 x1 a0 n) else accN x0 x1 a0 n

theorem accN_zero (x0 : Vec F S262144 .f32) (x1 : Vec F S262144 .i32) (a0 : Vec F S1x7x512 .f32) :
    accN x0 x1 a0 0 = a0 := rfl

theorem accN_succ (x0 : Vec F S262144 .f32) (x1 : Vec F S262144 .i32) (a0 : Vec F S1x7x512 .f32)
    (k : Fin k0_t1_loop.trips) : accN x0 x1 a0 (k.val + 1) = step x0 x1 k (accN x0 x1 a0 k.val) := by
  rw [accN]; exact dif_pos k.isLt

/-- The loop has 32 trips. -/
theorem trips_eq : k0_t1_loop.trips = 32 := by decide

/-- Trip `k`'s one piece: the whole block, stored at the trip's payload of what the trip loads. -/
theorem tripL_eq (𝒱 : Variants) (c : Dev nD) (bd : Option 𝒱.V) (i : grid0.Coords)
    (arg2 : Memref sig .tc .vmem S262144 .f32) (harg2 : arg2.IsWhole) (arg3 : Memref sig .tc .vmem S262144 .i32) (harg3 : arg3.IsWhole)
    (arg4 : Memref sig .tc .vmem S1x7x512 .f32) (harg4 : arg4.IsWhole)
    (X2 : BufTy.Contents (Elt F) arg2.view.ty) (X3 : BufTy.Contents (Elt F) arg3.view.ty) (k : Fin k0_t1_loop.trips)
    (f : BufTy.Contents (Elt F) arg4.view.ty) :
    tripL_k0_t1 (F := F) 𝒱 c bd i arg2 harg2 arg3 harg3 arg4 harg4 X2 X3 k f
      = [⟨Rect.unit (s := S1x7x512) ![0, 0, 0] S1x7x512.size Facts₀.inb_S1x7x512_S1x7x512_0_0_0,
          step (arg2.view.read (Elt F) X2) (arg3.view.read (Elt F) X3) k (arg4.view.read (Elt F) f)⟩] := by
  unfold tripL_k0_t1 trip_k0_t1
  dsimp only
  unfold step
  simp only [View.readAt_eq_ld, View.ld_unit_zero (S := S1x7x512) hz3]

/-- The block read back after the pieces of the first `n` trips is the `n`-fold from the block at loop entry. -/
theorem read_writes_pb (𝒱 : Variants) (c : Dev nD) (bd : Option 𝒱.V) (i : grid0.Coords)
    (arg2 : Memref sig .tc .vmem S262144 .f32) (harg2 : arg2.IsWhole) (arg3 : Memref sig .tc .vmem S262144 .i32) (harg3 : arg3.IsWhole)
    (arg4 : Memref sig .tc .vmem S1x7x512 .f32) (harg4 : arg4.IsWhole)
    (X2 : BufTy.Contents (Elt F) arg2.view.ty) (X3 : BufTy.Contents (Elt F) arg3.view.ty)
    (G : BufTy.Contents (Elt F) arg4.view.ty) :
    ∀ n : ℕ, n ≤ k0_t1_loop.trips →
      arg4.view.read (Elt F) (arg4.view.writes (Elt F) G
          (pb_k0_t1 (F := F) 𝒱 c bd i arg2 harg2 arg3 harg3 arg4 harg4 X2 X3 G n))
        = accN (arg2.view.read (Elt F) X2) (arg3.view.read (Elt F) X3) (arg4.view.read (Elt F) G) n
  | 0, _ => by
    rw [pb_k0_t1.eq_1, View.writes_nil]; rfl
  | n + 1, hn => by
    have hlt : n < k0_t1_loop.trips := hn
    have ih := read_writes_pb 𝒱 c bd i arg2 harg2 arg3 harg3 arg4 harg4 X2 X3 G n (Nat.le_of_lt hlt)
    have e := pb_k0_t1_succ (F := F) 𝒱 c bd i arg2 harg2 arg3 harg3 arg4 harg4 X2 X3 G ⟨n, hlt⟩
    rw [show (⟨n, hlt⟩ : Fin k0_t1_loop.trips).val + 1 = n + 1 from rfl] at e
    rw [e, tripL_eq, List.singleton_append,
      View.read_writes_eq_canon _ _ _ (fun y => ⟨_, List.mem_cons_self, View.mem_set_unit_zero hz3 Facts₀.inb_S1x7x512_S1x7x512_0_0_0 y⟩),
      View.canon_cons_unit_zero hz3, ih]
    exact (accN_succ _ _ _ ⟨n, hlt⟩).symm

/-- At a point that is not a core's first, the block left is the 32-fold from the block found. -/
theorem out0_B_2_eq (c : Dev nD) (i : grid0.Coords)
    (arg2 : Memref sig .tc .vmem S262144 .f32) (harg2 : arg2.IsWhole) (arg3 : Memref sig .tc .vmem S262144 .i32) (harg3 : arg3.IsWhole)
    (arg4 : Memref sig .tc .vmem S1x7x512 .f32) (harg4 : arg4.IsWhole) (hc0 : ¬cond0_0 i)
    (x0 : Vec F S262144 .f32) (x1 : Vec F S262144 .i32) (xo2 : Vec F S1x7x512 .f32) :
    out0_B_2 c i arg2 harg2 arg3 harg3 arg4 harg4 hc0 x0 x1 xo2 = accN x0 x1 xo2 k0_t1_loop.trips := by
  unfold out0_B_2
  rw [View.read_writes_junk_eq_canon,
    ← View.read_writes_eq_canon arg4.view (harg4.unread xo2) _ (cover0_B_2 c i arg2 harg2 arg3 harg3 arg4 harg4 hc0 x0 x1 xo2)]
  have hL : (kernelRun0_B c i arg2 harg2 arg3 harg3 arg4 harg4 hc0 x0 x1 xo2).1
      = pb_k0_t1 (F := F) Variants.none c none i arg2 harg2 arg3 harg3 arg4 harg4 (harg2.unread x0) (harg3.unread x1)
          (harg4.unread xo2) k0_t1_loop.trips := by
    unfold kernelRun0_B; rfl
  rw [hL, read_writes_pb _ _ _ _ _ _ _ _ _ _ _ _ _ _ (Nat.le_refl _), harg2.read_unread, harg3.read_unread, harg4.read_unread]

/-- At a core's first point, the block left is the 32-fold from the zero fill. -/
theorem out0_A_2_eq (c : Dev nD) (i : grid0.Coords)
    (arg2 : Memref sig .tc .vmem S262144 .f32) (harg2 : arg2.IsWhole) (arg3 : Memref sig .tc .vmem S262144 .i32) (harg3 : arg3.IsWhole)
    (arg4 : Memref sig .tc .vmem S1x7x512 .f32) (harg4 : arg4.IsWhole) (hc0 : cond0_0 i)
    (x0 : Vec F S262144 .f32) (x1 : Vec F S262144 .i32) :
    out0_A_2 c i arg2 harg2 arg3 harg3 arg4 harg4 hc0 x0 x1 = accN x0 x1 (k0_pay1 (F := F)) k0_t1_loop.trips := by
  unfold out0_A_2
  rw [View.read_writes_junk_eq_canon, ← View.read_writes_junk_eq_canon arg4.view]
  have hL : (kernelRun0_A c i arg2 harg2 arg3 harg3 arg4 harg4 hc0 x0 x1).1
      = pb_k0_t1 (F := F) Variants.none c none i arg2 harg2 arg3 harg3 arg4 harg4 (harg2.unread x0) (harg3.unread x1)
          (arg4.view.writes (Elt F) arg4.view.junk
            [⟨Rect.unit (s := S1x7x512) ![0, 0, 0] S1x7x512.size Facts₀.inb_S1x7x512_S1x7x512_0_0_0, k0_pay1 (F := F)⟩])
          k0_t1_loop.trips
        ++ [⟨Rect.unit (s := S1x7x512) ![0, 0, 0] S1x7x512.size Facts₀.inb_S1x7x512_S1x7x512_0_0_0, k0_pay1 (F := F)⟩] := by
    unfold kernelRun0_A; dsimp only; sl_unfold_run_names; rfl
  rw [hL, View.writes_append, read_writes_pb _ _ _ _ _ _ _ _ _ _ _ _ _ _ (Nat.le_refl _), View.read_writes_junk_eq_canon,
    View.canon_unit_zero hz3, harg2.read_unread, harg3.read_unread]

end Cert.KernelIdeal.KLoop

end
-- ==== Proof.SegSpec.lean ====
/-
  The shared vocabulary of this certificate's value proof, over plain functions of a natural-number position.

  An element `n` of the edge stream carries a value `x n` and an index word `w n`. It belongs to segment `s`
  when its word IS `s`; the weight `oh w s` is `1` then and `0` otherwise. The kernel streams seven columns per
  element: `1`, `x`, `x - x`, `ℓ x`, `ℓ x - ℓ x`, `(ℓ x)²`, `(ℓ x)² - (ℓ x)²` with `ℓ x = log (|x| + ε)`
  (the three differences are the low halves of a two-term split whose high half, at the ideal instance, is the
  value itself). `seg` is a column's weighted sum over a range of positions: what one accumulator entry holds
  after the positions of the range have been streamed.
-/
import Idealize.ShloMosaic.PureOps.Ideal
import Idealize.ShloMosaic.Lib.ValueIdx

noncomputable section

namespace Cert.SegSpec

open Idealize.ShloMosaic

/-- The additive constant inside the logarithm, as the extended real its pattern denotes. -/
abbrev epsE : EReal := Ideal.ofBits .f32 0x358637BD#32
/-- The patterns of `1` and `0`. -/
abbrev oneE : EReal := Ideal.ofBits .f32 0x3F800000#32
abbrev zeroE : EReal := Ideal.ofBits .f32 0x00000000#32

/-- `ℓ x = log (|x| + ε)` on the extended reals (`|x|` as `max x (-x)`). -/
def lg (x : EReal) : EReal := Ideal.log (max x (-x) + epsE)

/-- The seven streamed columns of an element's value. -/
def col : Fin 7 → EReal → EReal
  | ⟨0, _⟩, _ => 1
  | ⟨1, _⟩, x => x
  | ⟨2, _⟩, x => x - x
  | ⟨3, _⟩, x => lg x
  | ⟨4, _⟩, x => lg x - lg x
  | ⟨5, _⟩, x => lg x * lg x
  | ⟨_ + 6, _⟩, x => lg x * lg x - lg x * lg x

/-- The weight of index word `w` for segment `s`: one when the word is `s`, else zero. -/
def oh (w : BitVec 32) (s : ℕ) : EReal := if w = BitVec.ofNat 32 s then 1 else 0

/-- A one-axis array of length `L` read at a natural-number position (`d` past the end, never used). -/
def atL {α : Type} (d : α) (L : ℕ) (v : (⟨1, ![L]⟩ : Shape).Idx → α) (n : ℕ) : α :=
  if h : n < L then v (ValueIdx.ix1 ⟨n, h⟩) else d

theorem atL_of_lt {α : Type} (d : α) (L : ℕ) (v : (⟨1, ![L]⟩ : Shape).Idx → α) (n : ℕ) (h : n < L) :
    atL d L v n = v (ValueIdx.ix1 ⟨n, h⟩) := dif_pos h

/-- A float array and an index array at a position. -/
abbrev atE (L : ℕ) (v : (⟨1, ![L]⟩ : Shape).Idx → EReal) (n : ℕ) : EReal := atL 0 L v n
abbrev atW (L : ℕ) (v : (⟨1, ![L]⟩ : Shape).Idx → BitVec 32) (n : ℕ) : BitVec 32 := atL 0#32 L v n

/-- Column `j`'s weighted sum for segment `s` over the positions `lo ≤ n < hi`. -/
def seg (X : ℕ → EReal) (I : ℕ → BitVec 32) (j : Fin 7) (s : ℕ) (lo hi : ℕ) : EReal :=
  ∑ n ∈ Finset.Ico lo hi, col j (X n) * oh (I n) s

/-! ## What the kernel's epilogue forms per segment -/

/-- The two half-stream partial sums added. -/
def accK (X : ℕ → EReal) (I : ℕ → BitVec 32) (j : Fin 7) (s : ℕ) : EReal :=
  seg X I j s 0 8388608 + seg X I j s 8388608 16777216
def cntK (X : ℕ → EReal) (I : ℕ → BitVec 32) (s : ℕ) : EReal := max (accK X I 0 s) oneE
def meanwK (X : ℕ → EReal) (I : ℕ → BitVec 32) (s : ℕ) : EReal :=
  Ideal.div (accK X I 1 s + accK X I 2 s) (cntK X I s)
def mlK (X : ℕ → EReal) (I : ℕ → BitVec 32) (s : ℕ) : EReal :=
  Ideal.div (accK X I 3 s + accK X I 4 s) (cntK X I s)
def mlsqK (X : ℕ → EReal) (I : ℕ → BitVec 32) (s : ℕ) : EReal :=
  Ideal.div (accK X I 5 s + accK X I 6 s) (cntK X I s)
/-- The one-pass variance `E[ℓ²] - E[ℓ]²`, floored at zero. -/
def logvarK (X : ℕ → EReal) (I : ℕ → BitVec 32) (s : ℕ) : EReal :=
  max (mlsqK X I s - mlK X I s * mlK X I s) zeroE

/-! ## What the reference forms per segment -/

/-- A sum over the positions whose index word, read signed, is `s`. -/
def sumR (I : ℕ → BitVec 32) (f : ℕ → EReal) (s : ℕ) : EReal :=
  ∑ n ∈ (Finset.range 16777216).filter (fun n => (I n).toInt = (s : ℤ)), f n
def cntR (I : ℕ → BitVec 32) (s : ℕ) : EReal := max (zeroE + sumR I (fun _ => oneE) s) oneE
def meanwR (X : ℕ → EReal) (I : ℕ → BitVec 32) (s : ℕ) : EReal := Ideal.div (zeroE + sumR I X s) (cntR I s)
def mlR (X : ℕ → EReal) (I : ℕ → BitVec 32) (s : ℕ) : EReal :=
  Ideal.div (zeroE + sumR I (fun n => lg (X n)) s) (cntR I s)
/-- The two-pass variance: the mean of the squared deviations from the gathered segment mean `G n`. -/
def logvarR (X : ℕ → EReal) (I : ℕ → BitVec 32) (G : ℕ → EReal) (s : ℕ) : EReal :=
  Ideal.div (zeroE + sumR I (fun n => (lg (X n) - G n) * (lg (X n) - G n)) s) (cntR I s)

end Cert.SegSpec

end
-- ==== Proof.KPay.lean ====
/-
  The kernel body's two stored payloads read at an index, at the ideal instance.

  The zero fill is `0` everywhere. The loop trip's payload at row `j`, segment `s` of the 1×7×512 block is the
  block found there plus the contraction over the 8192 elements of the trip's chunk of column `j` of the element's
  value against the one-hot weight of the element's index word for segment `s`.
-/
import proofs.«426420_j43104291782998_2_alg».proof.Proof.Gen.KernelIdeal.Skeleton
import proofs.«426420_j43104291782998_2_alg».proof.Proof.SegSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.KPay

open Idealize.ShloMosaic Idealize.ShloMosaic.ValueIdx Cert.KernelIdeal Cert.KernelIdeal.Gen Cert.SegSpec

/-! ## Two column layouts read at an index -/

section Layout
variable {α : Type}

/-- A length-`a` vector cast to an `[a, 1]` column reads, at `(r, u)`, the vector at `r`. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- An `[a, 1]` column broadcast to `[a, b]` reads, at `(r, c)`, the column at `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-- The zero fill, at any index. -/
theorem pay1_apply (y : S1x7x512.Idx) : k0_pay1 (F := Ideal) y = 0 := by
  show Ideal.ofBits .f32 0x00000000#32 = 0
  exact Ideal.ofBits_zero_f32

/-! ## The one-hot weight -/

/-- The one-hot operand at element `r`, segment `s`: the weight of the element's index word for `s`. -/
theorem onehot_apply (v13 : Vec Ideal S8192 .i32) (r : Fin 8192) (s : Fin 512) :
    (truncf (F := Ideal) .bf16 (sitofp (F := Ideal) .f32 (extui 32 (cmpi .eq
      (broadcastTo S8192x512 (shapeCast S8192x1 v13 shapeCasts_S8192_S8192x1) broadcasts_S8192x1_S8192x512)
      (iota .tc S8192x512 32 [1] iota_S8192x512_d1_w32)) natLt_1_32)) bitsLt_bf16_f32) (ix2 r s)
      = oh (v13 (ix1 r)) s.val := by
  rw [truncf_apply, sitofp_apply, extui_apply]
  show FloatOps.sitofp (F := Ideal) .f32 ((IntOp.cmpi .eq
      (broadcastTo S8192x512 (shapeCast S8192x1 v13 shapeCasts_S8192_S8192x1) broadcasts_S8192x1_S8192x512 (ix2 r s))
      (iota .tc S8192x512 32 [1] iota_S8192x512_d1_w32 (ix2 r s))).setWidth 32) = _
  rw [broadcastTo_a1_ab_apply, shapeCast_a_a1_apply, iota_single_apply]
  show (((((IntOp.cmpi .eq (v13 (ix1 r)) (BitVec.ofNat 32 s.val)).setWidth 32).toInt : ℝ)) : EReal) = _
  unfold oh IntOp.cmpi
  by_cases h : v13 (ix1 r) = BitVec.ofNat 32 s.val
  · rw [if_pos h, h]
    simp
  · rw [if_neg h]
    have : (v13 (ix1 r) == BitVec.ofNat 32 s.val) = false := by simpa using h
    simp [this]

/-! ## The contraction over the chunk's elements -/

/-- On the left operand's contracted axis the index is the contraction coordinate … -/
theorem lhs_ax0 (j : S7x512.Idx) (k : dot_S8192x7_S8192x512_S7x512_0_0_1_1_n_n.contr.Idx) :
    (dot_S8192x7_S8192x512_S7x512_0_0_1_1_n_n.lhsIdx j k 0).val = (k ⟨0, by decide⟩).val :=
  DotDims.lhsIdx_val_of_single _ rfl j k

/-- … and on its kept axis the result's row. -/
theorem lhs_ax1 (j : S7x512.Idx) (k : dot_S8192x7_S8192x512_S7x512_0_0_1_1_n_n.contr.Idx) :
    (dot_S8192x7_S8192x512_S7x512_0_0_1_1_n_n.lhsIdx j k 1).val = (j 0).val := by
  simp [DotDims.lhsIdx, dot_S8192x7_S8192x512_S7x512_0_0_1_1_n_n]; rfl

/-- On the right operand's contracted axis the index is the contraction coordinate … -/
theorem rhs_ax0 (j : S7x512.Idx) (k : dot_S8192x7_S8192x512_S7x512_0_0_1_1_n_n.contr.Idx) :
    (dot_S8192x7_S8192x512_S7x512_0_0_1_1_n_n.rhsIdx j k 0).val = (k ⟨0, by decide⟩).val :=
  DotDims.rhsIdx_val_of_single _ rfl j k

/-- … and on its kept axis the result's column. -/
theorem rhs_ax1 (j : S7x512.Idx) (k : dot_S8192x7_S8192x512_S7x512_0_0_1_1_n_n.contr.Idx) :
    (dot_S8192x7_S8192x512_S7x512_0_0_1_1_n_n.rhsIdx j k 1).val = (j 1).val := by
  simp [DotDims.rhsIdx, dot_S8192x7_S8192x512_S7x512_0_0_1_1_n_n]; rfl

/-- The product into a zero accumulator at row `j`, column `s`: the sum over the 8192 elements of the left operand's
    entry `(r, j)` times the right operand's entry `(r, s)`. -/
theorem matmul_ix (L : FVec Ideal S8192x7 .bf16) (R : FVec Ideal S8192x512 .bf16) (j : Fin 7) (s : Fin 512) :
    matmul (F := Ideal) dot_S8192x7_S8192x512_S7x512_0_0_1_1_n_n none L R
        (constant (F := Ideal) S7x512 .f32 0x00000000#32) (ix2 j s)
      = ∑ r : Fin 8192, L (ix2 r j) * R (ix2 r s) := by
  show FloatOps.matmul dot_S8192x7_S8192x512_S7x512_0_0_1_1_n_n none L R
        (constant (F := Ideal) S7x512 .f32 0x00000000#32) (ix2 j s) = _
  rw [Ideal.matmul_constant_zero_apply,
    ← Equiv.sum_comp (contrEquiv1 dot_S8192x7_S8192x512_S7x512_0_0_1_1_n_n 8192 rfl rfl).symm]
  refine Finset.sum_congr rfl fun r _ => ?_
  have c := contrEquiv1_symm_val dot_S8192x7_S8192x512_S7x512_0_0_1_1_n_n 8192 rfl rfl r
  have l : dot_S8192x7_S8192x512_S7x512_0_0_1_1_n_n.lhsIdx (ix2 j s)
      ((contrEquiv1 dot_S8192x7_S8192x512_S7x512_0_0_1_1_n_n 8192 rfl rfl).symm r) = ix2 r j := by
    funext ax; apply Fin.ext
    match ax with
    | ⟨0, _⟩ => exact (lhs_ax0 _ _).trans c
    | ⟨1, _⟩ => exact lhs_ax1 _ _
  have rr : dot_S8192x7_S8192x512_S7x512_0_0_1_1_n_n.rhsIdx (ix2 j s)
      ((contrEquiv1 dot_S8192x7_S8192x512_S7x512_0_0_1_1_n_n 8192 rfl rfl).symm r) = ix2 r s := by
    funext ax; apply Fin.ext
    match ax with
    | ⟨0, _⟩ => exact (rhs_ax0 _ _).trans c
    | ⟨1, _⟩ => exact rhs_ax1 _ _
  rw [l, rr]

/-! ## The seven columns side by side -/

/-- One of seven things, by position. -/
def pick7 {β : Type} (c0 c1 c2 c3 c4 c5 c6 : β) : Fin 7 → β
  | ⟨0, _⟩ => c0
  | ⟨1, _⟩ => c1
  | ⟨2, _⟩ => c2
  | ⟨3, _⟩ => c3
  | ⟨4, _⟩ => c4
  | ⟨5, _⟩ => c5
  | ⟨_ + 6, _⟩ => c6

/-- Seven `[8192, 1]` columns concatenated along axis 1, read at `(r, j)`: column `j` at `(r, 0)`. -/
theorem concat7_apply {α : Type} (c0 c1 c2 c3 c4 c5 c6 : S8192x1.Idx → α)
    (h : Shape.Concatenates [S8192x1, S8192x1, S8192x1, S8192x1, S8192x1, S8192x1, S8192x1] S8192x7 1)
    (r : Fin 8192) (j : Fin 7) :
    concatenate S8192x7 1 [⟨S8192x1, c0⟩, ⟨S8192x1, c1⟩, ⟨S8192x1, c2⟩, ⟨S8192x1, c3⟩, ⟨S8192x1, c4⟩,
        ⟨S8192x1, c5⟩, ⟨S8192x1, c6⟩] h (ix2 r j)
      = pick7 c0 c1 c2 c3 c4 c5 c6 j (ix2 r (0 : Fin 1)) := by
  have hi : ∀ b : Fin S8192x1.rank, b.cast (rfl : S8192x1.rank = S8192x7.rank) ≠ (1 : Fin S8192x7.rank) →
      ((ix2 r (0 : Fin 1) : S8192x1.Idx) b).val = ((ix2 r j : S8192x7.Idx) (b.cast rfl)).val := fun b hb =>
    match b, hb with
    | ⟨0, _⟩, _ => rfl
    | ⟨1, _⟩, hb => absurd rfl hb
  match j with
  | ⟨0, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 0 (by show 0 < 7; omega) S8192x1 c0 rfl rfl 0 rfl _ hi rfl
  | ⟨1, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 1 (by show 1 < 7; omega) S8192x1 c1 rfl rfl 1 rfl _ hi rfl
  | ⟨2, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 2 (by show 2 < 7; omega) S8192x1 c2 rfl rfl 2 rfl _ hi rfl
  | ⟨3, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 3 (by show 3 < 7; omega) S8192x1 c3 rfl rfl 3 rfl _ hi rfl
  | ⟨4, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 4 (by show 4 < 7; omega) S8192x1 c4 rfl rfl 4 rfl _ hi rfl
  | ⟨5, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 5 (by show 5 < 7; omega) S8192x1 c5 rfl rfl 5 rfl _ hi rfl
  | ⟨6, _⟩ =>
    exact concatenate_apply_piece (1 : Fin S8192x7.rank) [⟨S8192x1, c0⟩, ⟨S8192x1, c1⟩, ⟨S8192x1, c2⟩, ⟨S8192x1, c3⟩, ⟨S8192x1, c4⟩, ⟨S8192x1, c5⟩, ⟨S8192x1, c6⟩]
      h _ 6 (by show 6 < 7; omega) S8192x1 c6 rfl rfl 6 rfl _ hi rfl

/-- One trip's payload at row `j`, segment `s`. -/
theorem pay2_apply (v11 : Vec Ideal S8192 .f32) (v13 : Vec Ideal S8192 .i32) (a : Vec Ideal S1x7x512 .f32)
    (j : Fin 7) (s : Fin 512) :
    k0_pay2 (F := Ideal) v11 v13 a (ix3 (0 : Fin 1) j s)
      = a (ix3 (0 : Fin 1) j s) + ∑ r : Fin 8192, col j (v11 (ix1 r)) * oh (v13 (ix1 r)) s.val := by
  unfold k0_pay2
  dsimp only
  rw [shapeCast_ab_1ab_apply, addf_apply, shapeCast_1ab_ab_apply, matmul_ix]
  refine congrArg (a (ix3 (0 : Fin 1) j s) + ·) (Finset.sum_congr rfl fun r _ => ?_)
  rw [onehot_apply, concat7_apply]
  refine congrArg (· * oh (v13 (ix1 r)) s.val) ?_
  match j with
  | ⟨0, _⟩ =>
    simp only [pick7]
    rw [shapeCast_a_a1_apply]
    exact Ideal.ofBits_one_bf16
  | ⟨1, _⟩ =>
    simp only [pick7]
    rw [shapeCast_a_a1_apply]
    rfl
  | ⟨2, _⟩ =>
    simp only [pick7]
    rw [shapeCast_a_a1_apply]
    rfl
  | ⟨3, _⟩ =>
    simp only [pick7]
    rw [shapeCast_a_a1_apply]
    rfl
  | ⟨4, _⟩ =>
    simp only [pick7]
    rw [shapeCast_a_a1_apply]
    rfl
  | ⟨5, _⟩ =>
    simp only [pick7]
    rw [shapeCast_a_a1_apply]
    rfl
  | ⟨6, _⟩ =>
    simp only [pick7]
    rw [shapeCast_a_a1_apply]
    rfl

end Cert.KernelIdeal.KPay

end
-- ==== Proof.KPoints.lean ====
/-
  What the output block holds after each grid point, and the kernel's result array.

  Grid point `t` (of 64: core `t / 32`, step `t % 32`) stages block `t` of the value stream and of the index stream,
  positions `262144 · t … 262144 · (t + 1) - 1`; its 32 trips stream that block in chunks of 8192. So after point `t`
  the accumulator block of core `t / 32` holds, at row `j` and segment `s`, column `j`'s weighted sum for `s` over
  the positions from the core's first, `8388608 · (t / 32)`, up to `262144 · (t + 1)`: by induction on the point,
  the first point of a core starting from the zero fill and every other from what the point before left.
-/
import proofs.«426420_j43104291782998_2_alg».proof.Proof.KLoop
import proofs.«426420_j43104291782998_2_alg».proof.Proof.KPay
import proofs.«426420_j43104291782998_2_alg».proof.Proof.SegSpec
import Mathlib.Algebra.BigOperators.Intervals

set_option maxRecDepth 16384

noncomputable section

namespace Cert.KernelIdeal.KPoints

open Idealize.ShloMosaic Idealize.ShloMosaic.TcCoe Idealize.ShloMosaic.ValueIdx Idealize.SL Idealize.SL.Sem
open Cert.KernelIdeal Cert.KernelIdeal.Gen Cert.KernelIdeal.KLoop Cert.KernelIdeal.KPay Cert.SegSpec

/-- A sum over a range of positions, extended by the next `B` positions. -/
theorem sum_Ico_add_block (f : ℕ → EReal) (lo mid B : ℕ) (h : lo ≤ mid) :
    ∑ q ∈ Finset.Ico lo mid, f q + ∑ r : Fin B, f (mid + r.val) = ∑ q ∈ Finset.Ico lo (mid + B), f q := by
  rw [← Finset.sum_Ico_consecutive f h (Nat.le_add_right mid B)]
  congr 1
  rw [Finset.sum_Ico_eq_sum_range, Nat.add_sub_cancel_left, Fin.sum_univ_eq_sum_range (fun r => f (mid + r)) B]

/-- Trip `k`'s chunk of a staged block, at lane `r`: the block at `8192 · k + r`. -/
theorem ld_chunk {e : EltTy} (x : Vec Ideal S262144 e) (k : Fin k0_t1_loop.trips) (r : Fin 8192)
    (h : 8192 * k.val + r.val < 262144) :
    View.ld x (Rect.unit (s := S262144) (k0_off1 k) S8192.size (Facts₀.k0_off1_inb k)) (ix1 r)
      = x (ix1 ⟨8192 * k.val + r.val, h⟩) := by
  show x _ = x _
  congr 1
  funext a
  apply Fin.ext
  have e0 : k0_off1 k (0 : Fin 1) = 8192 * k.val := by rw [k0_off1_eq k]; rfl
  match a with
  | ⟨0, _⟩ =>
    show k0_off1 k 0 + 1 * r.val = 8192 * k.val + r.val
    rw [e0]; omega

/-- The block after `n` trips at row `j`, segment `s`: the block found there plus the weighted sum over the first
    `8192 · n` positions of the staged blocks, the blocks read at positions from `base` on. -/
theorem accN_apply (x0 : Vec Ideal S262144 .f32) (x1 : Vec Ideal S262144 .i32) (a0 : Vec Ideal S1x7x512 .f32)
    (Xf : ℕ → EReal) (If : ℕ → BitVec 32) (base : ℕ)
    (hx : ∀ q : Fin 262144, x0 (ix1 q) = Xf (base + q.val)) (hi : ∀ q : Fin 262144, x1 (ix1 q) = If (base + q.val))
    (j : Fin 7) (s : Fin 512) :
    ∀ n : ℕ, n ≤ k0_t1_loop.trips →
      accN x0 x1 a0 n (ix3 (0 : Fin 1) j s) = a0 (ix3 (0 : Fin 1) j s) + seg Xf If j s.val base (base + 8192 * n)
  | 0, _ => by
    rw [accN_zero]; unfold seg
    rw [Nat.mul_zero, Nat.add_zero, Finset.Ico_self, Finset.sum_empty, add_zero]
  | n + 1, hn => by
    have hlt : n < k0_t1_loop.trips := hn
    have h32 : n < 32 := by rw [← trips_eq]; exact hlt
    have ih := accN_apply x0 x1 a0 Xf If base hx hi j s n (Nat.le_of_lt hlt)
    rw [accN_succ x0 x1 a0 ⟨n, hlt⟩]
    unfold step
    rw [pay2_apply, ih, add_assoc]
    congr 1
    unfold seg
    have hsum : ∀ r : Fin 8192,
        col j (View.ld x0 (Rect.unit (s := S262144) (k0_off1 ⟨n, hlt⟩) S8192.size (Facts₀.k0_off1_inb ⟨n, hlt⟩)) (ix1 r))
          * oh (View.ld x1 (Rect.unit (s := S262144) (k0_off1 ⟨n, hlt⟩) S8192.size (Facts₀.k0_off1_inb ⟨n, hlt⟩)) (ix1 r)) s.val
        = (fun p => col j (Xf p) * oh (If p) s.val) ((base + 8192 * n) + r.val) := by
      intro r
      have hr : 8192 * n + r.val < 262144 := by have := r.isLt; omega
      rw [ld_chunk x0 ⟨n, hlt⟩ r hr, ld_chunk x1 ⟨n, hlt⟩ r hr, hx, hi]
      show col j (Xf (base + (8192 * n + r.val))) * oh (If (base + (8192 * n + r.val))) s.val = _
      rw [Nat.add_assoc]
    rw [Finset.sum_congr rfl (fun r _ => hsum r),
      sum_Ico_add_block (fun p => col j (Xf p) * oh (If p) s.val) base (base + 8192 * n) 8192 (Nat.le_add_right _ _)]
    rw [show base + 8192 * n + 8192 = base + 8192 * (n + 1) by omega]

variable (m : (ℓ : Loc nD τ sig) → Buf (Elt Ideal) ℓ)

/-- The value stream and the index stream at a position. -/
abbrev Xs (c : Dev nD) : ℕ → EReal := atE 16777216 (m ((c.tc : Thread nD τ).loc main_arg0))
abbrev Is (c : Dev nD) : ℕ → BitVec 32 := atW 16777216 (m ((c.tc : Thread nD τ).loc main_arg1))

/-- The two input windows' block at point `t` is block `t` of the stream. -/
theorem idx0_0 : ∀ t : Fin cfg0.N, win0_0.index t (0 : Fin 1) = t.val :=
  (by decide +kernel : ∀ t : Fin grid0.N, win0_0.index t (0 : Fin 1) = t.val)
theorem idx0_1 : ∀ t : Fin cfg0.N, win0_1.index t (0 : Fin 1) = t.val :=
  (by decide +kernel : ∀ t : Fin grid0.N, win0_1.index t (0 : Fin 1) = t.val)

/-- The staged value block at point `t`, as a vector of its literal shape. -/
abbrev xblk (c : Dev nD) (t : Fin cfg0.N) : Vec Ideal S262144 .f32 := iblk m c 0 t
/-- The staged index block at point `t`. -/
abbrev iblkW (c : Dev nD) (t : Fin cfg0.N) : Vec Ideal S262144 .i32 := iblk m c 1 t

theorem xblk_apply (c : Dev nD) (t : Fin cfg0.N) (q : Fin 262144) :
    xblk m c t (ix1 q) = Xs m c (262144 * t.val + q.val) := by
  have hN : t.val < 64 := lt_of_lt_of_eq t.isLt (show cfg0.N = 64 from N_0)
  have h : 262144 * t.val + q.val < 16777216 := by have := q.isLt; omega
  rw [Xs, atE, atL_of_lt _ _ _ _ h]
  show V m c main_arg0 (((cfg0.win 0).blk t).view.emb (ix1 q)) = V m c main_arg0 (ix1 ⟨262144 * t.val + q.val, h⟩)
  congr 1
  funext a
  apply Fin.ext
  match a with
  | ⟨0, _⟩ =>
    show win0_0.index t 0 * 262144 + 1 * q.val = 262144 * t.val + q.val
    rw [idx0_0]; omega

theorem iblkW_apply (c : Dev nD) (t : Fin cfg0.N) (q : Fin 262144) :
    iblkW m c t (ix1 q) = Is m c (262144 * t.val + q.val) := by
  have hN : t.val < 64 := lt_of_lt_of_eq t.isLt (show cfg0.N = 64 from N_0)
  have h : 262144 * t.val + q.val < 16777216 := by have := q.isLt; omega
  rw [Is, atW, atL_of_lt _ _ _ _ h]
  show V m c main_arg1 (((cfg0.win 1).blk t).view.emb (ix1 q)) = V m c main_arg1 (ix1 ⟨262144 * t.val + q.val, h⟩)
  congr 1
  funext a
  apply Fin.ext
  match a with
  | ⟨0, _⟩ =>
    show win0_1.index t 0 * 262144 + 1 * q.val = 262144 * t.val + q.val
    rw [idx0_1]; omega

/-- THE INVARIANT: after point `n` the accumulator block holds the weighted sums over the positions streamed so far
    by the point's core. -/
theorem outsAt0_apply (c : Dev nD) (j : Fin 7) (s : Fin 512) :
    ∀ (n : ℕ) (hn : n < cfg0.N),
      outsAt0 m c n hn (ix3 (0 : Fin 1) j s) = seg (Xs m c) (Is m c) j s.val (8388608 * (n / 32)) (262144 * (n + 1)) := by
  intro n
  induction n using Nat.strong_induction_on with
  | _ n ih =>
    intro hn
    have hN : n < 64 := lt_of_lt_of_eq hn (show cfg0.N = 64 from N_0)
    by_cases h0 : n % 32 = 0
    · rw [show outsAt0 m c n hn = outsAt0 m c (⟨n, hn⟩ : Fin cfg0.N).val (⟨n, hn⟩ : Fin cfg0.N).isLt from rfl,
        outsAt0_A m c ⟨n, hn⟩ h0, out0_A_2_eq,
        accN_apply (xblk m c ⟨n, hn⟩) (iblkW m c ⟨n, hn⟩) (k0_pay1 (F := Ideal)) (Xs m c) (Is m c) (262144 * n)
          (fun q => xblk_apply m c ⟨n, hn⟩ q) (fun q => iblkW_apply m c ⟨n, hn⟩ q) j s k0_t1_loop.trips (Nat.le_refl _),
        pay1_apply, zero_add, trips_eq]
      congr 1 <;> omega
    · have hpos : 0 < n := Nat.pos_of_ne_zero (fun h => h0 (by rw [h]))
      have ihp := ih (n - 1) (by omega) (Nat.lt_of_le_of_lt (Nat.sub_le _ _) hn)
      rw [show outsAt0 m c n hn = outsAt0 m c (⟨n, hn⟩ : Fin cfg0.N).val (⟨n, hn⟩ : Fin cfg0.N).isLt from rfl,
        outsAt0_B m c ⟨n, hn⟩ h0, out0_B_2_eq,
        accN_apply (xblk m c ⟨n, hn⟩) (iblkW m c ⟨n, hn⟩) _ (Xs m c) (Is m c) (262144 * n)
          (fun q => xblk_apply m c ⟨n, hn⟩ q) (fun q => iblkW_apply m c ⟨n, hn⟩ q) j s k0_t1_loop.trips (Nat.le_refl _),
        trips_eq]
      show outsAt0 m c (n - 1) _ (ix3 (0 : Fin 1) j s) + _ = _
      rw [ihp]
      unfold seg
      rw [show 8388608 * ((n - 1) / 32) = 8388608 * (n / 32) by omega, show 262144 * (n - 1 + 1) = 262144 * n by omega,
        show 262144 * n + 8192 * 32 = 262144 * (n + 1) by omega]
      exact Finset.sum_Ico_consecutive _ (by omega) (by omega)

/-- The same at any index of the block (its leading coordinate is `0`, the block having one row there). -/
theorem outsAt0_apply' (c : Dev nD) (n : ℕ) (hn : n < cfg0.N) (y : S1x7x512.Idx) :
    outsAt0 m c n hn y = seg (Xs m c) (Is m c) (y 1) (y 2).val (8388608 * (n / 32)) (262144 * (n + 1)) := by
  have hy : y = ix3 (0 : Fin 1) (y 1) (y 2) := by
    funext a
    match a with
    | ⟨0, h⟩ =>
      apply Fin.ext
      have h1 : (y ⟨0, h⟩).val < 1 := (y ⟨0, h⟩).isLt
      show (y ⟨0, h⟩).val = 0
      omega
    | ⟨1, _⟩ => rfl
    | ⟨2, _⟩ => rfl
  conv_lhs => rw [hy]
  exact outsAt0_apply m c (y 1) (y 2) n hn

end Cert.KernelIdeal.KPoints

end
-- ==== Proof.TailDef.lean ====
/-
  The epilogue both programs share: from the per-segment mean of the weights `mw`, the per-segment log-space
  variance `lv` and the two target vectors, the scalar
  `(½ · mean ((mw - tm)²) + ½ · mean ((√(lv + ε) - ts)²)) · 0.01`, written with the host operations both printed
  programs use for it, so that each program's result is this one function of its own `mw` and `lv`.
-/
import proofs.«426420_j43104291782998_2_alg».proof.Proof.Gen.KernelIdeal
import Idealize.ShloMosaic.PureOps.Ideal

noncomputable section

namespace Cert.KernelIdeal.TailDef

open Idealize.ShloMosaic Cert.KernelIdeal Cert.KernelIdeal.Facts₀

/-- The shared epilogue at the ideal instance. -/
def tail (mw lv tm ts : FVec Ideal S512 .f32) : FVec Ideal S_ .f32 :=
  mulf (F := Ideal)
    (addf (F := Ideal)
      (mulf (F := Ideal) (constant (F := Ideal) S_ .f32 0x3F000000#32)
        (Host.divf (F := Ideal)
          (Host.reduceAdd (F := Ideal) (mulf (F := Ideal) (subf (F := Ideal) mw tm) (subf (F := Ideal) mw tm))
            (constant (F := Ideal) S_ .f32 0x00000000#32) reducesTo_S512_S_d0 h_S_)
          (constant (F := Ideal) S_ .f32 0x44000000#32)))
      (mulf (F := Ideal) (constant (F := Ideal) S_ .f32 0x3F000000#32)
        (Host.divf (F := Ideal)
          (Host.reduceAdd (F := Ideal)
            (mulf (F := Ideal)
              (subf (F := Ideal) (Host.sqrt (F := Ideal) (addf (F := Ideal) lv (broadcastInDim S512 ![] bcast_S_S512 (constant (F := Ideal) S_ .f32 0x358637BD#32)))) ts)
              (subf (F := Ideal) (Host.sqrt (F := Ideal) (addf (F := Ideal) lv (broadcastInDim S512 ![] bcast_S_S512 (constant (F := Ideal) S_ .f32 0x358637BD#32)))) ts))
            (constant (F := Ideal) S_ .f32 0x00000000#32) reducesTo_S512_S_d0 h_S_)
          (constant (F := Ideal) S_ .f32 0x44000000#32))))
    (constant (F := Ideal) S_ .f32 0x3C23D70A#32)

end Cert.KernelIdeal.TailDef

end
-- ==== Proof.KTail.lean ====
/-
  The host operations after the kernel region, read as the shared epilogue.

  After the region the program adds the two cores' 7×512 partial-sum blocks, takes rows 0 … 6 apart, forms the
  count floored at one, the three per-segment means, the one-pass variance floored at zero, and then the shared
  epilogue. This module reads those operations off the array the region leaves.
-/
import proofs.«426420_j43104291782998_2_alg».proof.Proof.Gen.KernelIdeal.Frame
import proofs.«426420_j43104291782998_2_alg».proof.Proof.SegSpec
import proofs.«426420_j43104291782998_2_alg».proof.Proof.TailDef
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KTail

open Idealize.ShloMosaic Idealize.ShloMosaic.TcCoe Idealize.ShloMosaic.ValueIdx Idealize.SL Idealize.SL.Sem
open Cert.KernelIdeal Cert.KernelIdeal.Gen Cert.KernelIdeal.TailDef Cert.SegSpec

/-- Row `j`, segment `s` of the two cores' partial sums added. -/
def accsum (A : Vec Ideal S2x7x512 .f32) (j : Fin 7) (s : Fin 512) : EReal :=
  A (ix3 (0 : Fin 2) j s) + A (ix3 (1 : Fin 2) j s)

/-- The segment's count floored at one. -/
def cntOf (A : Vec Ideal S2x7x512 .f32) (s : Fin 512) : EReal := max (accsum A 0 s) oneE

/-- The per-segment mean of the weights the epilogue forms. -/
def mwOf (A : Vec Ideal S2x7x512 .f32) : FVec Ideal S512 .f32 := fun i =>
  Ideal.div (accsum A 1 (i 0) + accsum A 2 (i 0)) (cntOf A (i 0))

/-- The per-segment one-pass variance, floored at zero. -/
def lvOf (A : Vec Ideal S2x7x512 .f32) : FVec Ideal S512 .f32 := fun i =>
  max (Ideal.div (accsum A 5 (i 0) + accsum A 6 (i 0)) (cntOf A (i 0))
      - Ideal.div (accsum A 3 (i 0) + accsum A 4 (i 0)) (cntOf A (i 0))
        * Ideal.div (accsum A 3 (i 0) + accsum A 4 (i 0)) (cntOf A (i 0))) zeroE

/-- The two cores' 7×512 blocks added, as the program forms the sum. -/
def blk (A : Vec Ideal S2x7x512 .f32) : FVec Ideal S7x512 .f32 :=
  addf (F := Ideal)
    (shapeCast S7x512 (extractStridedSlice S1x7x512 ![0, 0, 0] A slices_S2x7x512_S1x7x512_0_0_0) shapeCasts_S1x7x512_S7x512)
    (shapeCast S7x512 (extractStridedSlice S1x7x512 ![1, 0, 0] A slices_S2x7x512_S1x7x512_1_0_0) shapeCasts_S1x7x512_S7x512)

/-- Row `j` of the added blocks, as the program takes it apart. -/
def rowH (A : Vec Ideal S2x7x512 .f32) (j : ℕ) (h : S7x512.Slices ![j, 0] S1x512) : FVec Ideal S512 .f32 :=
  shapeCast S512 (extractStridedSlice S1x512 ![j, 0] (blk A) h) shapeCasts_S1x512_S512

/-- The count floored at one, as the program forms it. -/
def cntH (A : Vec Ideal S2x7x512 .f32) : FVec Ideal S512 .f32 :=
  maximumf (F := Ideal) (rowH A 0 slices_S7x512_S1x512_0_0)
    (broadcastInDim S512 ![] bcast_S_S512 (constant (F := Ideal) S_ .f32 0x3F800000#32))

/-- The mean of the weights, as the program forms it. -/
def mwH (A : Vec Ideal S2x7x512 .f32) : FVec Ideal S512 .f32 :=
  Host.divf (F := Ideal) (addf (F := Ideal) (rowH A 1 slices_S7x512_S1x512_1_0) (rowH A 2 slices_S7x512_S1x512_2_0)) (cntH A)

/-- The mean of the logarithms, as the program forms it. -/
def mlH (A : Vec Ideal S2x7x512 .f32) : FVec Ideal S512 .f32 :=
  Host.divf (F := Ideal) (addf (F := Ideal) (rowH A 3 slices_S7x512_S1x512_3_0) (rowH A 4 slices_S7x512_S1x512_4_0)) (cntH A)

/-- The one-pass variance floored at zero, as the program forms it. -/
def lvH (A : Vec Ideal S2x7x512 .f32) : FVec Ideal S512 .f32 :=
  maximumf (F := Ideal)
    (subf (F := Ideal)
      (Host.divf (F := Ideal) (addf (F := Ideal) (rowH A 5 slices_S7x512_S1x512_5_0) (rowH A 6 slices_S7x512_S1x512_6_0)) (cntH A))
      (mulf (F := Ideal) (mlH A) (mlH A)))
    (broadcastInDim S512 ![] bcast_S_S512 (constant (F := Ideal) S_ .f32 0x00000000#32))

/-- The added blocks at row `j`, segment `s`. -/
theorem blk_apply (A : Vec Ideal S2x7x512 .f32) (j : Fin 7) (s : Fin 512) : blk A (ix2 j s) = accsum A j s := by
  unfold blk accsum
  rw [addf_apply, shapeCast_1ab_ab_apply, shapeCast_1ab_ab_apply,
    extractStridedSlice_apply ![0, 0, 0] A slices_S2x7x512_S1x7x512_0_0_0 (ix3 (0 : Fin 1) j s) (ix3 (0 : Fin 2) j s)
      (fun a => by
        match a with
        | ⟨0, _⟩ => rfl
        | ⟨1, _⟩ => exact (Nat.zero_add _).symm
        | ⟨2, _⟩ => exact (Nat.zero_add _).symm),
    extractStridedSlice_apply ![1, 0, 0] A slices_S2x7x512_S1x7x512_1_0_0 (ix3 (0 : Fin 1) j s) (ix3 (1 : Fin 2) j s)
      (fun a => by
        match a with
        | ⟨0, _⟩ => rfl
        | ⟨1, _⟩ => exact (Nat.zero_add _).symm
        | ⟨2, _⟩ => exact (Nat.zero_add _).symm)]

/-- Row `j` of the added blocks at segment `s`. -/
theorem rowH_apply (A : Vec Ideal S2x7x512 .f32) (j : ℕ) (hj : j < 7) (h : S7x512.Slices ![j, 0] S1x512) (s : Fin 512) :
    rowH A j h (ix1 s) = accsum A ⟨j, hj⟩ s := by
  unfold rowH
  rw [shapeCast_1a_a_apply,
    extractStridedSlice_apply ![j, 0] (blk A) h (ix2 (0 : Fin 1) s) (ix2 (⟨j, hj⟩ : Fin 7) s)
      (fun a => by
        match a with
        | ⟨0, _⟩ => rfl
        | ⟨1, _⟩ => exact (Nat.zero_add _).symm),
    blk_apply]

/-- A host quotient at an index. -/
theorem hdivf_apply (a b : FVec Ideal S512 .f32) (i : S512.Idx) :
    Host.divf (F := Ideal) a b i = Ideal.div (a i) (b i) := rfl

/-- The count at a segment. -/
theorem cntH_apply (A : Vec Ideal S2x7x512 .f32) (s : Fin 512) : cntH A (ix1 s) = cntOf A s := by
  unfold cntH cntOf
  rw [maximumf_apply, rowH_apply A 0 (by omega)]
  rfl

/-- The mean of the weights the program forms is the one read off the array. -/
theorem mwH_eq (A : Vec Ideal S2x7x512 .f32) : mwH A = mwOf A := by
  funext i
  obtain ⟨s, rfl⟩ : ∃ s : Fin 512, i = ix1 s := ⟨i 0, eq_ix1 i⟩
  unfold mwH mwOf
  rw [hdivf_apply, addf_apply, rowH_apply A 1 (by omega), rowH_apply A 2 (by omega), cntH_apply]
  rfl

/-- The mean of the logarithms at a segment. -/
theorem mlH_apply (A : Vec Ideal S2x7x512 .f32) (s : Fin 512) :
    mlH A (ix1 s) = Ideal.div (accsum A 3 s + accsum A 4 s) (cntOf A s) := by
  unfold mlH
  rw [hdivf_apply, addf_apply, rowH_apply A 3 (by omega), rowH_apply A 4 (by omega), cntH_apply]
  rfl

/-- The variance the program forms is the one read off the array. -/
theorem lvH_eq (A : Vec Ideal S2x7x512 .f32) : lvH A = lvOf A := by
  funext i
  obtain ⟨s, rfl⟩ : ∃ s : Fin 512, i = ix1 s := ⟨i 0, eq_ix1 i⟩
  unfold lvH lvOf
  rw [maximumf_apply, subf_apply, mulf_apply, mlH_apply, hdivf_apply, addf_apply,
    rowH_apply A 5 (by omega), rowH_apply A 6 (by omega), cntH_apply]
  rfl

set_option maxHeartbeats 4000000 in
/-- The program's result after the host tail is the shared epilogue of the two quantities as the program forms them. -/
theorem tail_readH (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (A : Vec Ideal S2x7x512 .f32) (hA : (dats 0 c).arrAt 2 cfg0.N = A) :
    Pipeline.afterTail₀ cfgs dats 0 (V0 m) [hostOps1] c main_v46
      = tail (mwH A) (lvH A) (m ((c.tc : Thread nD τ).loc main_arg2)) (m ((c.tc : Thread nD τ).loc main_arg3)) := by
  have h0 : Pipeline.withArrays (cfgs 0).spec c (V0 m c) (fun w => (dats 0 c).arrAt w (cfgs 0).N) (Proc.devRef .tc main_v0) = A :=
    (Pipeline.withArrays_arr spec0 launch0.win.arr_inj c _ _ 2).trans hA
  have h2 : Pipeline.withArrays (cfgs 0).spec c (V0 m c) (fun w => (dats 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v46) = _
  after_results_simp
  rw [h0, h2, h3]
  rfl

/-- The program's result after the host tail, from the array `A` the region leaves: the shared epilogue of the two
    per-segment quantities formed from `A`, for any proof data of the pipeline. -/
theorem tail_read (m : (ℓ : Loc nD τ sig) → Buf (Elt Ideal) ℓ)
    (dats : (p : Fin 1) → (c : Dev nD) → Pipeline.Dat τ (Elt Ideal) Unit ℕ (UR sig nD τ) ℕ (cfgs p) c) (c : Dev nD)
    (A : Vec Ideal S2x7x512 .f32) (hA : (dats 0 c).arrAt 2 cfg0.N = A) :
    Pipeline.afterTail₀ cfgs dats 0 (V0 m) [hostOps1] c main_v46
      = tail (mwOf A) (lvOf A) (m ((c.tc : Thread nD τ).loc main_arg2)) (m ((c.tc : Thread nD τ).loc main_arg3)) := by
  rw [tail_readH m dats c A hA, mwH_eq, lvH_eq]

end Cert.KernelIdeal.KTail

end
-- ==== Proof.KFinal.lean ====
/-
  The kernel program's run with its result named.

  The result array of the region, f32[2,7,512], holds at `(c', j, s)` column `j`'s weighted sum for segment `s` over
  core `c'`'s half of the stream: core `c'` writes its accumulator block back once, after its last grid point
  `32 · c' + 31`, when the block holds the sums over all of the core's positions; the two blocks tile the array.
  The host operations after the region then form the shared epilogue of the per-segment mean and one-pass variance.
-/
import proofs.«426420_j43104291782998_2_alg».proof.Proof.KPoints
import proofs.«426420_j43104291782998_2_alg».proof.Proof.KTail

set_option maxRecDepth 16384

noncomputable section

namespace Cert.KernelIdeal.KFinal

open Idealize.ShloMosaic Idealize.ShloMosaic.TcCoe Idealize.ShloMosaic.ValueIdx Idealize.SL Idealize.SL.Sem
open Cert.KernelIdeal Cert.KernelIdeal.Gen Cert.KernelIdeal.KPoints Cert.KernelIdeal.KTail Cert.KernelIdeal.TailDef Cert.SegSpec

variable (m : (ℓ : Loc nD τ sig) → Buf (Elt Ideal) ℓ) (ρ : Dev nD → PrngReg)

/-- The region's result array as one function of the two streams. -/
def Gacc (c : Dev nD) : Vec Ideal S2x7x512 .f32 := fun i =>
  seg (Xs m c) (Is m c) (i 1) (i 2).val (8388608 * (i 0).val) (8388608 * ((i 0).val + 1))

theorem Gacc_of (c : Dev nD) (i : S2x7x512.Idx) (c' : ℕ) (j : Fin 7) (s : ℕ)
    (h0 : (i 0).val = c') (h1 : (i 1).val = j.val) (h2 : (i 2).val = s) :
    Gacc m c i = seg (Xs m c) (Is m c) j s (8388608 * c') (8388608 * (c' + 1)) := by
  unfold Gacc
  have e1 : (i 1 : Fin 7) = j := Fin.ext h1
  rw [e1, h0, h2]

/-- The output window's block at point `t` is block `(t / 32, 0, 0)`. -/
theorem idx2_facts : ∀ t : Fin cfg0.N, win0_2.index t (0 : Fin 3) = t.val / 32
    ∧ win0_2.index t (1 : Fin 3) = 0 ∧ win0_2.index t (2 : Fin 3) = 0 :=
  (by decide +kernel : ∀ t : Fin grid0.N, win0_2.index t (0 : Fin 3) = t.val / 32
    ∧ win0_2.index t (1 : Fin 3) = 0 ∧ win0_2.index t (2 : Fin 3) = 0)

/-- Any array function read through point `t`'s block is the function at the block's embedded index. -/
theorem read_blk2 (G : Vec Ideal S2x7x512 .f32) (t : Fin cfg0.N) (y : ((cfg0.win 2).xblock (grid0.coords t)).Idx) :
    ((cfg0.win 2).blk t).view.read (Elt Ideal) G y = G (((cfg0.win 2).blk t).view.emb y) := rfl

/-- What a core's last point writes back is the core's block of `Gacc`. -/
theorem flushed2_eq (c : Dev nD) (t : Fin cfg0.N) (hf : (cfg0.win 2).flush t = true) :
    (dats m 0 c).flushed 2 t = ((cfg0.win 2).blk t).view.read (Elt Ideal) (Gacc m c) := by
  show (cfg0.win 2).cut (grid0.coords t) ((dats m 0 c).after 2 t) = _
  rw [after0_2]
  have h31 : t.val % 32 = 31 := (flush0_2 t).mp hf
  have hN : t.val < 64 := lt_of_lt_of_eq t.isLt (show cfg0.N = 64 from N_0)
  obtain ⟨e0, e1, e2⟩ := idx2_facts t
  funext y
  rw [read_blk2 (Gacc m c) t y]
  show outsAt0 m c t.val t.isLt ((cfg0.win 2).xinj (grid0.coords t) y) = _
  have hy0 : (y 0).val < 1 := (y 0).isLt
  have h0 : ((((cfg0.win 2).blk t).view.emb y) 0).val = t.val / 32 := by
    show win0_2.index t (0 : Fin 3) * 1 + 1 * (y 0).val = _
    rw [e0]; omega
  have h1 : ((((cfg0.win 2).blk t).view.emb y) 1).val = (((cfg0.win 2).xinj (grid0.coords t) y) 1).val := by
    show win0_2.index t (1 : Fin 3) * 7 + 1 * (y 1).val = (y 1).val
    rw [e1]; omega
  have h2 : ((((cfg0.win 2).blk t).view.emb y) 2).val = (((cfg0.win 2).xinj (grid0.coords t) y) 2).val := by
    show win0_2.index t (2 : Fin 3) * 512 + 1 * (y 2).val = (y 2).val
    rw [e2]; omega
  rw [outsAt0_apply' m c t.val t.isLt ((cfg0.win 2).xinj (grid0.coords t) y),
    Gacc_of m c (((cfg0.win 2).blk t).view.emb y) (t.val / 32) (((cfg0.win 2).xinj (grid0.coords t) y) 1)
      (((cfg0.win 2).xinj (grid0.coords t) y) 2).val h0 h1 h2,
    show 262144 * (t.val + 1) = 8388608 * (t.val / 32 + 1) by omega]

/-- An index of the array is in point `t`'s block iff each coordinate is in the block's range on its axis. -/
theorem mem_blk2 (t : Fin cfg0.N) (i : S2x7x512.Idx) :
    i ∈ ((cfg0.win 2).blk t).view.set ↔ ∀ a : Fin 3, win0_2.index t a * S1x7x512.size a ≤ (i a).val
      ∧ (i a).val < win0_2.index t a * S1x7x512.size a + S1x7x512.size a := by
  show i ∈ ((View.whole main_v0).slice (win0_2.rect t)).set ↔ _
  rw [View.set_slice_whole, Rect.mem_set_unit]
  exact Iff.rfl

/-- Every index of the array is in the block some core's last point writes back. -/
theorem cover2 (i : S2x7x512.Idx) :
    ∃ t : Fin cfg0.N, (cfg0.win 2).flush t = true ∧ i ∈ ((cfg0.win 2).blk t).view.set := by
  have hi0 : (i 0).val < 2 := (i 0).isLt
  have hi1 : (i 1).val < 7 := (i 1).isLt
  have hi2 : (i 2).val < 512 := (i 2).isLt
  have hlt : 32 * (i 0).val + 31 < cfg0.N := by rw [show cfg0.N = 64 from N_0]; omega
  refine ⟨⟨32 * (i 0).val + 31, hlt⟩, (flush0_2 _).mpr (by show (32 * (i 0).val + 31) % 32 = 31; omega), ?_⟩
  obtain ⟨e0, e1, e2⟩ := idx2_facts ⟨32 * (i 0).val + 31, hlt⟩
  rw [mem_blk2]
  intro a
  match a with
  | ⟨0, _⟩ =>
    show win0_2.index _ (0 : Fin 3) * 1 ≤ (i 0).val ∧ (i 0).val < win0_2.index _ (0 : Fin 3) * 1 + 1
    rw [e0]; show (32 * (i 0).val + 31) / 32 * 1 ≤ (i 0).val ∧ (i 0).val < (32 * (i 0).val + 31) / 32 * 1 + 1; omega
  | ⟨1, _⟩ =>
    show win0_2.index _ (1 : Fin 3) * 7 ≤ (i 1).val ∧ (i 1).val < win0_2.index _ (1 : Fin 3) * 7 + 7
    rw [e1]; omega
  | ⟨2, _⟩ =>
    show win0_2.index _ (2 : Fin 3) * 512 ≤ (i 2).val ∧ (i 2).val < win0_2.index _ (2 : Fin 3) * 512 + 512
    rw [e2]; omega

/-- The result array after the run. -/
theorem final2 (c : Dev nD) : (dats m 0 c).arrAt 2 cfg0.N = Gacc m c :=
  (dats m 0 c).arrAt_eq_of_cover 2 (Gacc m c) (fun t hf => flushed2_eq m c t hf) (cover2)

/-- The two cores' partial sums added are the whole stream's column sums, split at the half. -/
theorem accsum_Gacc (c : Dev nD) (j : Fin 7) (s : Fin 512) : accsum (Gacc m c) j s = accK (Xs m c) (Is m c) j s.val := by
  unfold accsum accK
  rw [Gacc_of m c (ix3 (0 : Fin 2) j s) 0 j s.val rfl rfl rfl, Gacc_of m c (ix3 (1 : Fin 2) j s) 1 j s.val rfl rfl rfl]

theorem mwOf_Gacc (c : Dev nD) (i : S512.Idx) : mwOf (Gacc m c) i = meanwK (Xs m c) (Is m c) (i 0).val := by
  unfold mwOf cntOf
  rw [accsum_Gacc m c 1 (i 0), accsum_Gacc m c 2 (i 0), accsum_Gacc m c 0 (i 0)]
  rfl

theorem lvOf_Gacc (c : Dev nD) (i : S512.Idx) : lvOf (Gacc m c) i = logvarK (Xs m c) (Is m c) (i 0).val := by
  unfold lvOf cntOf
  rw [accsum_Gacc m c 5 (i 0), accsum_Gacc m c 6 (i 0), accsum_Gacc m c 3 (i 0), accsum_Gacc m c 4 (i 0),
    accsum_Gacc m c 0 (i 0)]
  rfl

/-- THE RUN: every weakly fair execution terminates with the result at the shared epilogue of the kernel's
    per-segment mean and one-pass variance, the arguments unchanged. -/
theorem krun : θ_run defs (onTc (τ := τ) (main (F := Ideal))) ⟨m, fun _ => 0, ρ⟩ (fun r => ∀ c : Dev nD,
      r.2.mem ((c.tc : Thread nD τ).loc main_v46)
        = tail (mwOf (Gacc m c)) (lvOf (Gacc m c)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v46 (Pipeline.mem_restRefs_of main_v46 (by decide) (by decide))).trans
        (tail_read m (dats m) c (Gacc m c) (final2 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.KFinal

end
-- ==== Proof.RefRead.lean ====
/-
  The reference's two per-segment quantities, and its epilogue, in the certificate's vocabulary.

  The reference forms each segment's count, sum of values, sum of `ℓ` and sum of squared deviations by an accumulating
  scatter: an element contributes to the segment its index word, read signed, names, and to none when the word names no
  segment. The squared deviation is taken from the segment mean gathered back at the element's (wrapped, clamped)
  index, which for an element that belongs to a segment is that segment's mean.
-/
import proofs.«426420_j43104291782998_2_alg».proof.Proof.Gen.ReferenceIdeal.Read
import proofs.«426420_j43104291782998_2_alg».proof.Proof.SegSpec
import proofs.«426420_j43104291782998_2_alg».proof.Proof.TailDef
import Idealize.ShloMosaic.Lib.ValueIdx
import Idealize.ShloMosaic.Lib.StableHlo.Predicate

set_option maxRecDepth 16384

noncomputable section

namespace Cert.ReferenceIdeal.RefRead

open Idealize.ShloMosaic Idealize.ShloMosaic.ValueIdx Cert.ReferenceIdeal Cert.ReferenceIdeal.Gen Cert.SegSpec

/-! ## The accumulating scatter of this program, decoded

One scatter record serves all four scatters: the operand has one axis, which is inserted (no window axes), and the
index table is a column, row `j` of which is update `j`'s start index. So update `j` lands at the operand position its
index word, read signed, names, and nowhere when that is not a position. -/

/-- The program's one scatter record. -/
abbrev scD : ScatterDims S512 S16777216x1 S16777216 := scatter_S512_S16777216x1_S16777216_n_0_0_1

/-- The start of update `j`'s (one-element) window: row `j` of the index column, read signed. -/
theorem scatter_start (j : S16777216.Idx) (idx : IVec S16777216x1 32) (a : Fin S512.rank) :
    scD.start j idx a = (idx (ix2 (j 0) 0)).toInt := by
  obtain rfl : a = 0 := Subsingleton.elim _ _
  unfold ScatterDims.start
  rw [dif_pos (show (0 : Fin S512.rank) ∈ scD.scatterDimsToOperandDims from List.mem_singleton.mpr rfl)]
  refine congrArg (fun z => (idx z).toInt) ?_
  funext b
  refine Fin.ext ?_
  match b with
  | ⟨0, _⟩ => rfl
  | ⟨1, _⟩ => rfl

/-- No window axes: the window coordinate is zero. -/
theorem scatter_window (j : S16777216.Idx) (a : Fin S512.rank) : scD.window j a = 0 := by
  obtain rfl : a = 0 := Subsingleton.elim _ _
  unfold ScatterDims.window
  rw [dif_neg (by decide)]

/-- Update `j` lands at operand position `i` exactly when its index word, read signed, is `i`'s coordinate. -/
theorem scatter_resultIdx_iff (j : S16777216.Idx) (idx : IVec S16777216x1 32) (i : S512.Idx) :
    scD.resultIdx? j idx = some i ↔ (idx (ix2 (j 0) 0)).toInt = ((i 0).val : ℤ) := by
  have hi : (i 0).val < 512 := (i 0).isLt
  unfold ScatterDims.resultIdx?
  constructor
  · intro h
    split at h
    · rename_i hc
      have h0 := congrArg Fin.val (congrFun (Option.some.inj h) 0)
      have hc0 := hc 0
      simp only [scatter_start, scatter_window] at h0 hc0
      omega
    · cases h
  · intro h
    have hc : ∀ a, 0 ≤ scD.start j idx a + scD.window j a ∧ scD.start j idx a + scD.window j a < S512.size a := by
      intro a
      obtain rfl : a = 0 := Subsingleton.elim _ _
      rw [scatter_start, scatter_window, h]
      show (0 : ℤ) ≤ ((i 0).val : ℤ) + ((0 : ℕ) : ℤ) ∧ ((i 0).val : ℤ) + ((0 : ℕ) : ℤ) < ((512 : ℕ) : ℤ)
      omega
    rw [dif_pos hc]
    refine congrArg some ?_
    funext a
    obtain rfl : a = 0 := Subsingleton.elim _ _
    refine Fin.ext ?_
    show (scD.start j idx 0 + scD.window j 0).toNat = (i 0).val
    rw [scatter_start, scatter_window, h]
    omega

/-- The index column built from the index array: row `n` holds word `n`. -/
theorem col_read (x1 : (⟨S16777216, .i32⟩ : BufTy).Contents (Elt Ideal)) (n : ℕ) (h : n < 16777216) :
    broadcastInDim S16777216x1 ![0] bcast_S16777216_S16777216x1_0 x1 (ix2 ⟨n, h⟩ 0) = x1 (ix1 ⟨n, h⟩) :=
  (Read.val_main_v2_apply (F := Ideal) x1 (ix2 ⟨n, h⟩ 0)).trans
    (congrArg x1 (funext fun a => match a with | ⟨0, _⟩ => rfl))

/-- THE SCATTER READ AT A SEGMENT: the operand's element plus the sum of the updates over the positions whose index
    word, read signed, is the segment. The positions of the update array are re-indexed by their coordinate. -/
theorem scatter_read (x : (⟨S512, .f32⟩ : BufTy).Contents (Elt Ideal)) (idx : (⟨S16777216x1, .i32⟩ : BufTy).Contents (Elt Ideal))
    (x1 : (⟨S16777216, .i32⟩ : BufTy).Contents (Elt Ideal))
    (hidx : ∀ n (h : n < 16777216), idx (ix2 ⟨n, h⟩ 0) = x1 (ix1 ⟨n, h⟩))
    (upd : (⟨S16777216, .f32⟩ : BufTy).Contents (Elt Ideal)) (f : ℕ → EReal)
    (hf : ∀ n (h : n < 16777216), upd (ix1 ⟨n, h⟩) = f n) (z : EReal) (i : S512.Idx) (hz : x i = z) :
    Host.scatterAdd (F := Ideal) (φ := .f32) scatter_S512_S16777216x1_S16777216_n_0_0_1 x idx upd i
      = z + sumR (atW 16777216 x1) f (i 0).val := by
  show Ideal.hostScatterAdd scD x idx upd i = _
  unfold Ideal.hostScatterAdd sumR
  rw [hz]
  refine congrArg (z + ·) ?_
  refine Finset.sum_bij (fun j _ => (j 0).val) ?_ ?_ ?_ ?_
  · intro j hj
    obtain ⟨a, rfl⟩ : ∃ a : Fin 16777216, j = ix1 a := ⟨j 0, eq_ix1 j⟩
    obtain ⟨n, hn⟩ := a
    have hj2 := (scatter_resultIdx_iff _ idx i).mp (Finset.mem_filter.mp hj).2
    refine Finset.mem_filter.mpr ⟨Finset.mem_range.mpr hn, ?_⟩
    have e : atW 16777216 x1 n = x1 (ix1 ⟨n, hn⟩) := atL_of_lt _ _ _ _ hn
    show (atW 16777216 x1 n).toInt = _
    rw [e, ← hidx n hn]
    exact hj2
  · intro a _ b _ hab
    exact (eq_ix1 a).trans ((congrArg (@ix1 16777216) (Fin.ext hab)).trans (eq_ix1 b).symm)
  · intro n hn
    obtain ⟨hn1, hn2⟩ := Finset.mem_filter.mp hn
    have hlt : n < 16777216 := Finset.mem_range.mp hn1
    refine ⟨ix1 ⟨n, hlt⟩, ?_, rfl⟩
    refine Finset.mem_filter.mpr ⟨Finset.mem_univ _, ?_⟩
    refine (scatter_resultIdx_iff _ idx i).mpr ?_
    have e : atW 16777216 x1 n = x1 (ix1 ⟨n, hlt⟩) := atL_of_lt _ _ _ _ hlt
    show (idx (ix2 ⟨n, hlt⟩ 0)).toInt = _
    rw [hidx n hlt, ← e]
    exact hn2
  · intro j _
    obtain ⟨a, rfl⟩ : ∃ a : Fin 16777216, j = ix1 a := ⟨j 0, eq_ix1 j⟩
    exact hf a.val a.isLt

/-! ## The reference's stages at a segment -/

/-- The element count of a segment before the floor at one. -/
theorem v3_read (x1 : (⟨S16777216, .i32⟩ : BufTy).Contents (Elt Ideal)) (i : S512.Idx) :
    Read.val_main_v3 (F := Ideal) x1 i = zeroE + sumR (atW 16777216 x1) (fun _ => oneE) (i 0).val :=
  scatter_read (Read.val_main_v1 (F := Ideal)) (Read.val_main_v2 (F := Ideal) x1) x1 (col_read x1)
    (Read.val_main_v0 (F := Ideal)) (fun _ => oneE) (fun n hn => (Read.val_main_v0_apply (F := Ideal) _).trans rfl)
    zeroE i ((Read.val_main_v1_apply (F := Ideal) i).trans rfl)

/-- The floored element count. -/
theorem cnt_read (x1 : (⟨S16777216, .i32⟩ : BufTy).Contents (Elt Ideal)) (i : S512.Idx) :
    Read.val_main_v5 (F := Ideal) x1 i = cntR (atW 16777216 x1) (i 0).val := by
  rw [Read.val_main_v5_apply, v3_read, Read.val_main_v4_apply]
  rfl

/-- The sum of the values of a segment. -/
theorem v8_read (x0 : (⟨S16777216, .f32⟩ : BufTy).Contents (Elt Ideal)) (x1 : (⟨S16777216, .i32⟩ : BufTy).Contents (Elt Ideal))
    (i : S512.Idx) :
    Read.val_main_v8 (F := Ideal) x0 x1 i = zeroE + sumR (atW 16777216 x1) (atE 16777216 x0) (i 0).val :=
  scatter_read (Read.val_main_v6 (F := Ideal)) (Read.val_main_v7 (F := Ideal) x1) x1 (col_read x1)
    x0 (atE 16777216 x0) (fun n hn => (atL_of_lt _ _ _ _ hn).symm)
    zeroE i ((Read.val_main_v6_apply (F := Ideal) i).trans rfl)

/-- `ℓ` of the value at a position. -/
theorem lg_read (x0 : (⟨S16777216, .f32⟩ : BufTy).Contents (Elt Ideal)) (n : ℕ) (h : n < 16777216) :
    Read.val_main_v13 (F := Ideal) x0 (ix1 ⟨n, h⟩) = lg (atE 16777216 x0 n) := by
  have e : atE 16777216 x0 n = x0 (ix1 ⟨n, h⟩) := atL_of_lt _ _ _ _ h
  rw [e, Read.val_main_v13_apply, Read.val_main_v12_apply, Read.val_main_v10_apply, Read.val_main_v11_apply]
  rfl

/-- The sum of `ℓ` over a segment. -/
theorem v16_read (x0 : (⟨S16777216, .f32⟩ : BufTy).Contents (Elt Ideal)) (x1 : (⟨S16777216, .i32⟩ : BufTy).Contents (Elt Ideal))
    (i : S512.Idx) :
    Read.val_main_v16 (F := Ideal) x0 x1 i
      = zeroE + sumR (atW 16777216 x1) (fun n => lg (atE 16777216 x0 n)) (i 0).val :=
  scatter_read (Read.val_main_v14 (F := Ideal)) (Read.val_main_v15 (F := Ideal) x1) x1 (col_read x1)
    (Read.val_main_v13 (F := Ideal) x0) (fun n => lg (atE 16777216 x0 n)) (fun n hn => lg_read x0 n hn)
    zeroE i ((Read.val_main_v14_apply (F := Ideal) i).trans rfl)

/-- The mean of `ℓ` over a segment. -/
theorem ml_read (x0 : (⟨S16777216, .f32⟩ : BufTy).Contents (Elt Ideal)) (x1 : (⟨S16777216, .i32⟩ : BufTy).Contents (Elt Ideal))
    (i : S512.Idx) :
    Read.val_main_v17 (F := Ideal) x0 x1 i = mlR (atE 16777216 x0) (atW 16777216 x1) (i 0).val := by
  rw [Read.val_main_v17_apply, v16_read, cnt_read]
  rfl

/-- The mean of the weights per segment. -/
theorem ref_meanw (x0 : (⟨S16777216, .f32⟩ : BufTy).Contents (Elt Ideal)) (x1 : (⟨S16777216, .i32⟩ : BufTy).Contents (Elt Ideal))
    (i : S512.Idx) :
    Read.val_main_v9 (F := Ideal) x0 x1 i = meanwR (atE 16777216 x0) (atW 16777216 x1) (i 0).val := by
  rw [Read.val_main_v9_apply, v8_read, cnt_read]
  rfl

/-! ## The gathered segment mean

The gather's start index at a position is the position's index word, with `512` added when it is negative, then
clamped into `[0, 511]`. A word that names a segment is not negative and is inside that range, so the gather reads the
segment's own mean. -/

/-- A word that reads signed as a natural number is not below zero, so the wrap leaves it alone. -/
theorem wrap_word (w : BitVec 32) (s : ℕ) (hw : w.toInt = (s : ℤ)) :
    Scalar.select (IntOp.cmpi .slt w 0#32) (IntOp.addi w 512#32) w = w := by
  have h0 : IntOp.cmpi .slt w 0#32 = 0#1 := by
    have hlt : w.slt 0#32 = false := by
      have hz : (0#32 : BitVec 32).toInt = 0 := by decide
      rw [show w.slt 0#32 = decide (w.toInt < (0#32 : BitVec 32).toInt) from rfl, hw, hz]
      exact decide_eq_false (by omega)
    show BitVec.ofBool (w.slt 0#32) = 0#1
    rw [hlt]
    rfl
  rw [h0]
  exact select_zero _ _

/-- The wrapped index column at a row whose word names a segment: the word. -/
theorem wrapcol_read (x1 : (⟨S16777216, .i32⟩ : BufTy).Contents (Elt Ideal)) (n : ℕ) (h : n < 16777216) (s : ℕ)
    (hw : (x1 (ix1 ⟨n, h⟩)).toInt = (s : ℤ)) :
    Read.val_main_v23 (F := Ideal) x1 (StableHlo.Predicate.ixP (⟨n, h⟩ : Fin 16777216)) = x1 (ix1 ⟨n, h⟩) := by
  have hj : Read.idx_main_v23 (StableHlo.Predicate.ixP (⟨n, h⟩ : Fin 16777216)) = ix1 ⟨n, h⟩ :=
    funext fun a => match a with | ⟨0, _⟩ => rfl
  rw [Read.val_main_v23_apply, hj, Read.val_main_v22_apply, Read.val_main_v19_apply, Read.val_main_v21_apply,
    Read.val_main_v18_apply, Read.val_main_v20_apply]
  exact wrap_word _ s hw

/-- The two spellings of a rank-1 index at a coordinate. -/
theorem ofFin_eq_ix1 {m : ℕ} (p : Fin m) : Shape.Idx.ofFin p = ix1 p :=
  funext fun a => match a with | ⟨0, _⟩ => Fin.ext rfl

/-- THE GATHER READ AT A POSITION OF SEGMENT `s`: the mean of `ℓ` over segment `s`. -/
theorem gather_read (x0 : (⟨S16777216, .f32⟩ : BufTy).Contents (Elt Ideal)) (x1 : (⟨S16777216, .i32⟩ : BufTy).Contents (Elt Ideal))
    (n : ℕ) (h : n < 16777216) (s : ℕ) (hs : s < 512) (hw : (atW 16777216 x1 n).toInt = (s : ℤ)) :
    Read.val_main_v24 (F := Ideal) x0 x1 (ix1 ⟨n, h⟩) = mlR (atE 16777216 x0) (atW 16777216 x1) s := by
  have e : atW 16777216 x1 n = x1 (ix1 ⟨n, h⟩) := atL_of_lt _ _ _ _ h
  rw [e] at hw
  have hg := StableHlo.Predicate.gather_take gather_S512_S16777216x1_S16777216_n_0_n_n_0_1_1 rfl rfl rfl rfl
    (Read.val_main_v17 (F := Ideal) x0 x1) (Read.val_main_v23 (F := Ideal) x1) (⟨n, h⟩ : Fin 16777216) (by decide)
  rw [ofFin_eq_ix1] at hg
  refine hg.trans ?_
  have hp : (Shape.Idx.ofFin (⟨min (Read.val_main_v23 (F := Ideal) x1 (StableHlo.Predicate.ixP (⟨n, h⟩ : Fin 16777216))).toInt.toNat (512 - 1),
      by omega⟩ : Fin 512) : S512.Idx) = ix1 ⟨s, hs⟩ := by
    rw [ofFin_eq_ix1]
    refine congrArg (@ix1 512) (Fin.ext ?_)
    show min (Read.val_main_v23 (F := Ideal) x1 (StableHlo.Predicate.ixP (⟨n, h⟩ : Fin 16777216))).toInt.toNat (512 - 1) = s
    rw [wrapcol_read x1 n h s hw, hw, Int.toNat_natCast]
    omega
  rw [hp, ml_read]

/-- The log-space variance per segment, over SOME gathered means `G` that at an element of segment `s` are the
    segment's mean of `ℓ`. -/
theorem ref_logvar (x0 : (⟨S16777216, .f32⟩ : BufTy).Contents (Elt Ideal)) (x1 : (⟨S16777216, .i32⟩ : BufTy).Contents (Elt Ideal)) :
    ∃ G : ℕ → EReal,
      (∀ n s : ℕ, n < 16777216 → s < 512 → (atW 16777216 x1 n).toInt = (s : ℤ) → G n = mlR (atE 16777216 x0) (atW 16777216 x1) s)
      ∧ ∀ i : S512.Idx, Read.val_main_v30 (F := Ideal) x0 x1 i = logvarR (atE 16777216 x0) (atW 16777216 x1) G (i 0).val := by
  refine ⟨fun n => if h : n < 16777216 then Read.val_main_v24 (F := Ideal) x0 x1 (ix1 ⟨n, h⟩) else 0, ?_, ?_⟩
  · intro n s hn hs hw
    exact (dif_pos hn).trans (gather_read x0 x1 n hn s hs hw)
  · intro i
    have h29 := scatter_read (Read.val_main_v27 (F := Ideal)) (Read.val_main_v28 (F := Ideal) x1) x1 (col_read x1)
      (Read.val_main_v26 (F := Ideal) x0 x1)
      (fun n => (lg (atE 16777216 x0 n) - (if h : n < 16777216 then Read.val_main_v24 (F := Ideal) x0 x1 (ix1 ⟨n, h⟩) else 0))
        * (lg (atE 16777216 x0 n) - (if h : n < 16777216 then Read.val_main_v24 (F := Ideal) x0 x1 (ix1 ⟨n, h⟩) else 0)))
      (fun n hn => by
        rw [Read.val_main_v26_apply, Read.val_main_v25_apply, lg_read, dif_pos hn]
        rfl)
      zeroE i ((Read.val_main_v27_apply (F := Ideal) i).trans rfl)
    have h29' : Read.val_main_v29 (F := Ideal) x0 x1 i = _ := h29
    rw [Read.val_main_v30_apply, h29', cnt_read]
    rfl

/-- The reference's result is the shared epilogue of its two per-segment quantities. -/
theorem ref_tail (x0 : (⟨S16777216, .f32⟩ : BufTy).Contents (Elt Ideal)) (x1 : (⟨S16777216, .i32⟩ : BufTy).Contents (Elt Ideal))
    (x2 x3 : (⟨S512, .f32⟩ : BufTy).Contents (Elt Ideal)) :
    Read.val_main_v45 (F := Ideal) x0 x1 x2 x3
      = Cert.KernelIdeal.TailDef.tail (Read.val_main_v9 (F := Ideal) x0 x1) (Read.val_main_v30 (F := Ideal) x0 x1) x2 x3 := by
  rfl

end Cert.ReferenceIdeal.RefRead

end
-- ==== Proof.SegAlgebra.lean ====
/-
  The two programs' per-segment quantities are equal on finite inputs.

  With every value a real number, each column sum is a real; the three difference columns vanish; an element's
  one-hot weight is one exactly when its index word read signed is the segment; and for a segment of `n ≥ 1`
  elements `Σ (ℓ - Σℓ/n)² / n = Σℓ²/n - (Σℓ/n)²`, which is nonnegative, so flooring it at zero changes nothing; an
  empty segment gives zero on both sides.
-/
import proofs.«426420_j43104291782998_2_alg».proof.Proof.SegSpec

set_option maxRecDepth 16384

noncomputable section

namespace Cert.SegSpec

open Idealize.ShloMosaic

/-! ## The constants -/

theorem oneE_eq : oneE = 1 := by
  simp [oneE, Ideal.ofBits, Ideal.ieee, -EReal.coe_mul]; norm_num

theorem zeroE_eq : zeroE = 0 := by
  simp [zeroE, Ideal.ofBits, Ideal.ieee]

/-- The additive constant is a positive real. -/
theorem epsE_pos : ∃ e : ℝ, 0 < e ∧ epsE = (e : EReal) := by
  simp [epsE, Ideal.ofBits, Ideal.ieee, -EReal.coe_mul]

/-! ## The one-hot weight -/

/-- A small natural number's word, read signed, is the number. -/
theorem toInt_ofNat_small (s : ℕ) (hs : s < 512) : (BitVec.ofNat 32 s).toInt = (s : ℤ) := by
  have h1 : (BitVec.ofNat 32 s).toNat = s := by
    rw [BitVec.toNat_ofNat]; exact Nat.mod_eq_of_lt (by omega)
  rw [BitVec.toInt_eq_toNat_of_lt (by rw [h1]; omega), h1]

/-- The weight is one exactly when the word read signed is the segment. -/
theorem oh_eq (w : BitVec 32) (s : ℕ) (hs : s < 512) :
    oh w s = if w.toInt = (s : ℤ) then 1 else 0 := by
  unfold oh
  have h : (w = BitVec.ofNat 32 s) ↔ w.toInt = (s : ℤ) := by
    constructor
    · rintro rfl
      exact toInt_ofNat_small s hs
    · intro h
      apply BitVec.eq_of_toInt_eq
      rw [h, toInt_ofNat_small s hs]
  simp only [h]

/-! ## Coercions through sums, maxima and quotients -/

theorem coe_sum (S : Finset ℕ) (f : ℕ → ℝ) :
    ((∑ n ∈ S, f n : ℝ) : EReal) = ∑ n ∈ S, (f n : EReal) := by
  classical
  refine Finset.induction_on S ?_ ?_
  · simp
  · intro a S ha ih
    rw [Finset.sum_insert ha, Finset.sum_insert ha, EReal.coe_add, ih]

theorem coe_max (a b : ℝ) : ((max a b : ℝ) : EReal) = max (a : EReal) (b : EReal) :=
  EReal.coe_strictMono.monotone.map_max

theorem div_coe_coe (a c : ℝ) (hc : c ≠ 0) :
    Ideal.div (a : EReal) (c : EReal) = ((a / c : ℝ) : EReal) := by
  rw [Ideal.div_coe hc, ← EReal.coe_mul, mul_one_div]

/-! ## The columns at a real value -/

/-- The logarithm column at a real value. -/
theorem lg_coe (e : ℝ) (he : 0 < e) (hE : epsE = (e : EReal)) (r : ℝ) :
    lg (r : EReal) = ((Real.log (|r| + e) : ℝ) : EReal) := by
  have hpos : ¬ (|r| + e ≤ 0) := not_le.mpr (add_pos_of_nonneg_of_pos (abs_nonneg r) he)
  unfold lg
  rw [hE, ← EReal.coe_neg, ← coe_max, ← abs_eq_max_neg, ← EReal.coe_add, Ideal.log_coe, if_neg hpos]

theorem col0 (x : EReal) : col 0 x = ((1 : ℝ) : EReal) := by
  show (1 : EReal) = _
  simp
theorem col1 (x : EReal) : col 1 x = x := rfl
theorem col2 (r : ℝ) : col 2 (r : EReal) = ((0 : ℝ) : EReal) := by
  show (r : EReal) - (r : EReal) = _
  rw [← EReal.coe_sub, sub_self]
theorem col3 (x : EReal) : col 3 x = lg x := rfl
theorem col4 (x : EReal) (l : ℝ) (h : lg x = (l : EReal)) : col 4 x = ((0 : ℝ) : EReal) := by
  show lg x - lg x = _
  rw [h, ← EReal.coe_sub, sub_self]
theorem col5 (x : EReal) (l : ℝ) (h : lg x = (l : EReal)) : col 5 x = ((l * l : ℝ) : EReal) := by
  show lg x * lg x = _
  rw [h, ← EReal.coe_mul]
theorem col6 (x : EReal) (l : ℝ) (h : lg x = (l : EReal)) : col 6 x = ((0 : ℝ) : EReal) := by
  show lg x * lg x - lg x * lg x = _
  rw [h, ← EReal.coe_mul, ← EReal.coe_sub, sub_self]

/-! ## The sums as real sums over the segment's positions -/

/-- The positions of segment `s`. -/
abbrev segSet (I : ℕ → BitVec 32) (s : ℕ) : Finset ℕ :=
  (Finset.range 16777216).filter (fun n => (I n).toInt = (s : ℤ))

/-- A weighted column sum over a range of positions, for a real-valued column. -/
theorem seg_eq (X : ℕ → EReal) (I : ℕ → BitVec 32) (j : Fin 7) (s : ℕ) (hs : s < 512) (c : ℕ → ℝ)
    (hc : ∀ n, n < 16777216 → col j (X n) = (c n : EReal)) (lo hi : ℕ) (hhi : hi ≤ 16777216) :
    seg X I j s lo hi
      = ((∑ n ∈ Finset.Ico lo hi, (if (I n).toInt = (s : ℤ) then c n else 0) : ℝ) : EReal) := by
  unfold seg
  rw [coe_sum]
  refine Finset.sum_congr rfl (fun n hn => ?_)
  rw [Finset.mem_Ico] at hn
  rw [hc n (lt_of_lt_of_le hn.2 hhi), oh_eq _ _ hs]
  split_ifs <;> simp

/-- The two half-stream sums together are the real sum over the segment's positions. -/
theorem accK_eq (X : ℕ → EReal) (I : ℕ → BitVec 32) (j : Fin 7) (s : ℕ) (hs : s < 512) (c : ℕ → ℝ)
    (hc : ∀ n, n < 16777216 → col j (X n) = (c n : EReal)) :
    accK X I j s = ((∑ n ∈ segSet I s, c n : ℝ) : EReal) := by
  unfold accK
  rw [seg_eq X I j s hs c hc 0 8388608 (by norm_num), seg_eq X I j s hs c hc 8388608 16777216 le_rfl,
    ← EReal.coe_add, Finset.sum_Ico_consecutive _ (by norm_num) (by norm_num), Finset.sum_filter,
    Finset.range_eq_Ico]

/-- The reference's sum of a column that is real on the segment's positions. -/
theorem sumR_eq (I : ℕ → BitVec 32) (f : ℕ → EReal) (g : ℕ → ℝ) (s : ℕ)
    (hfg : ∀ n, n < 16777216 → (I n).toInt = (s : ℤ) → f n = (g n : EReal)) :
    sumR I f s = ((∑ n ∈ segSet I s, g n : ℝ) : EReal) := by
  unfold sumR
  rw [coe_sum]
  refine Finset.sum_congr rfl (fun n hn => ?_)
  rw [Finset.mem_filter, Finset.mem_range] at hn
  exact hfg n hn.1 hn.2

/-! ## The counts -/

/-- The floored count of segment `s`, as a real. -/
def cR (I : ℕ → BitVec 32) (s : ℕ) : ℝ := max ((segSet I s).card : ℝ) 1

theorem cR_ne (I : ℕ → BitVec 32) (s : ℕ) : cR I s ≠ 0 :=
  ne_of_gt (lt_of_lt_of_le one_pos (le_max_right _ _))

theorem cntK_eq (X : ℕ → EReal) (I : ℕ → BitVec 32) (s : ℕ) (hs : s < 512) :
    cntK X I s = ((cR I s : ℝ) : EReal) := by
  unfold cntK cR
  rw [accK_eq X I 0 s hs (fun _ => 1) (fun n _ => col0 _), oneE_eq, ← EReal.coe_one, ← coe_max,
    Finset.sum_const, nsmul_eq_mul, mul_one]

theorem cntR_eq (I : ℕ → BitVec 32) (s : ℕ) : cntR I s = ((cR I s : ℝ) : EReal) := by
  unfold cntR cR
  rw [sumR_eq I (fun _ => oneE) (fun _ => 1) s (fun _ _ _ => by rw [oneE_eq, EReal.coe_one]),
    zeroE_eq, zero_add, oneE_eq, ← EReal.coe_one, ← coe_max, Finset.sum_const, nsmul_eq_mul, mul_one]

/-! ## The variance identity over the reals -/

/-- The mean of the squared deviations from the mean is the mean of the squares less the squared mean, and
    flooring the latter at zero changes nothing; with the count floored at one an empty set gives zero both ways. -/
theorem real_var (S : Finset ℕ) (l : ℕ → ℝ) (c m : ℝ) (hc : c = max (S.card : ℝ) 1)
    (hm : m = (∑ n ∈ S, l n) / c) :
    max ((∑ n ∈ S, l n * l n) / c - m * m) 0 = (∑ n ∈ S, (l n - m) * (l n - m)) / c := by
  have hcpos : 0 < c := by rw [hc]; exact lt_of_lt_of_le one_pos (le_max_right _ _)
  have key : (∑ n ∈ S, (l n - m) * (l n - m))
      = (∑ n ∈ S, l n * l n) - 2 * m * (∑ n ∈ S, l n) + S.card * (m * m) := by
    have h1 : ∀ n, (l n - m) * (l n - m) = l n * l n - 2 * m * l n + m * m := fun n => by ring
    simp only [h1, Finset.sum_add_distrib, Finset.sum_sub_distrib, ← Finset.mul_sum, Finset.sum_const,
      nsmul_eq_mul]
    ring
  have hnn : 0 ≤ (∑ n ∈ S, (l n - m) * (l n - m)) / c :=
    div_nonneg (Finset.sum_nonneg (fun n _ => mul_self_nonneg _)) hcpos.le
  have heq : (∑ n ∈ S, l n * l n) / c - m * m = (∑ n ∈ S, (l n - m) * (l n - m)) / c := by
    rcases Nat.eq_zero_or_pos S.card with h0 | hpos
    · have hS : S = ∅ := Finset.card_eq_zero.mp h0
      subst hS
      simp [hm]
    · have hcc : (S.card : ℝ) = c := by
        rw [hc]; exact (max_eq_left (by exact_mod_cast hpos)).symm
      have hsum : (∑ n ∈ S, l n) = m * c := by rw [hm]; field_simp
      rw [key, hcc, hsum]
      field_simp
      ring
  rw [heq]
  exact max_eq_left hnn

/-! ## The two equalities -/

/-- Real witnesses of the finite values, chosen at every position. -/
theorem real_witness (X : ℕ → EReal) (hfin : ∀ n, n < 16777216 → ∃ r : ℝ, X n = (r : EReal)) :
    ∃ xr : ℕ → ℝ, ∀ n, n < 16777216 → X n = (xr n : EReal) := by
  have h : ∀ n, ∃ r : ℝ, n < 16777216 → X n = (r : EReal) := fun n => by
    by_cases hn : n < 16777216
    · obtain ⟨r, hr⟩ := hfin n hn
      exact ⟨r, fun _ => hr⟩
    · exact ⟨0, fun h' => absurd h' hn⟩
  choose xr hxr using h
  exact ⟨xr, hxr⟩

/-- The mean of the weights: the kernel's one-hot sums against the reference's sums over the segment's elements. -/
theorem meanw_eq (X : ℕ → EReal) (I : ℕ → BitVec 32) (hfin : ∀ n, n < 16777216 → ∃ r : ℝ, X n = (r : EReal))
    (s : ℕ) (hs : s < 512) : meanwK X I s = meanwR X I s := by
  obtain ⟨xr, hxr⟩ := real_witness X hfin
  unfold meanwK meanwR
  rw [cntK_eq X I s hs, cntR_eq I s,
    accK_eq X I 1 s hs xr (fun n hn => by rw [col1, hxr n hn]),
    accK_eq X I 2 s hs (fun _ => 0) (fun n hn => by rw [hxr n hn, col2]),
    sumR_eq I X xr s (fun n hn _ => hxr n hn), zeroE_eq, Finset.sum_const_zero, EReal.coe_zero,
    add_zero, zero_add]

/-- The kernel's mean of the logarithms, as a real. -/
theorem mlK_eq (X : ℕ → EReal) (I : ℕ → BitVec 32) (s : ℕ) (hs : s < 512) (l : ℕ → ℝ)
    (hl : ∀ n, n < 16777216 → lg (X n) = (l n : EReal)) :
    mlK X I s = (((∑ n ∈ segSet I s, l n) / cR I s : ℝ) : EReal) := by
  unfold mlK
  rw [cntK_eq X I s hs,
    accK_eq X I 3 s hs l (fun n hn => by rw [col3, hl n hn]),
    accK_eq X I 4 s hs (fun _ => 0) (fun n hn => col4 _ _ (hl n hn)),
    Finset.sum_const_zero, EReal.coe_zero, add_zero, div_coe_coe _ _ (cR_ne I s)]

/-- The kernel's mean of the squared logarithms, as a real. -/
theorem mlsqK_eq (X : ℕ → EReal) (I : ℕ → BitVec 32) (s : ℕ) (hs : s < 512) (l : ℕ → ℝ)
    (hl : ∀ n, n < 16777216 → lg (X n) = (l n : EReal)) :
    mlsqK X I s = (((∑ n ∈ segSet I s, l n * l n) / cR I s : ℝ) : EReal) := by
  unfold mlsqK
  rw [cntK_eq X I s hs,
    accK_eq X I 5 s hs (fun n => l n * l n) (fun n hn => col5 _ _ (hl n hn)),
    accK_eq X I 6 s hs (fun _ => 0) (fun n hn => col6 _ _ (hl n hn)),
    Finset.sum_const_zero, EReal.coe_zero, add_zero, div_coe_coe _ _ (cR_ne I s)]

/-- The reference's mean of the logarithms, as a real. -/
theorem mlR_eq (X : ℕ → EReal) (I : ℕ → BitVec 32) (s : ℕ) (l : ℕ → ℝ)
    (hl : ∀ n, n < 16777216 → lg (X n) = (l n : EReal)) :
    mlR X I s = (((∑ n ∈ segSet I s, l n) / cR I s : ℝ) : EReal) := by
  unfold mlR
  rw [cntR_eq I s, sumR_eq I (fun n => lg (X n)) l s (fun n hn _ => hl n hn), zeroE_eq, zero_add,
    div_coe_coe _ _ (cR_ne I s)]

/-- The log-space variance: one pass against two. -/
theorem logvar_eq (X : ℕ → EReal) (I : ℕ → BitVec 32) (G : ℕ → EReal)
    (hfin : ∀ n, n < 16777216 → ∃ r : ℝ, X n = (r : EReal))
    (hG : ∀ n s : ℕ, n < 16777216 → s < 512 → (I n).toInt = (s : ℤ) → G n = mlR X I s)
    (s : ℕ) (hs : s < 512) : logvarK X I s = logvarR X I G s := by
  obtain ⟨xr, hxr⟩ := real_witness X hfin
  obtain ⟨e, he, hE⟩ := epsE_pos
  have hl : ∀ n, n < 16777216 → lg (X n) = ((Real.log (|xr n| + e) : ℝ) : EReal) :=
    fun n hn => by rw [hxr n hn, lg_coe e he hE]
  have hdev : ∀ n, n < 16777216 → (I n).toInt = (s : ℤ) →
      (lg (X n) - G n) * (lg (X n) - G n)
        = (((Real.log (|xr n| + e) - (∑ k ∈ segSet I s, Real.log (|xr k| + e)) / cR I s)
            * (Real.log (|xr n| + e) - (∑ k ∈ segSet I s, Real.log (|xr k| + e)) / cR I s) : ℝ) : EReal) :=
    fun n hn hI => by
      rw [hG n s hn hs hI, mlR_eq X I s _ hl, hl n hn, ← EReal.coe_sub, ← EReal.coe_mul]
  unfold logvarK logvarR
  rw [mlsqK_eq X I s hs _ hl, mlK_eq X I s hs _ hl, cntR_eq I s, sumR_eq I _ _ s hdev, zeroE_eq, zero_add,
    div_coe_coe _ _ (cR_ne I s), ← EReal.coe_mul, ← EReal.coe_sub, ← EReal.coe_zero, ← coe_max,
    real_var (segSet I s) _ (cR I s) _ rfl rfl]

end Cert.SegSpec

end
-- ==== Proof.Finite.lean ====
/-
  The precondition makes every streamed value a real number: `|x| < +∞` on the extended reals leaves only the reals.
-/
import proofs.«426420_j43104291782998_2_alg».proof.Defs
import proofs.«426420_j43104291782998_2_alg».proof.Proof.Gen.KernelIdeal
import proofs.«426420_j43104291782998_2_alg».proof.Proof.Gen.Pre_finite_inputs
import Idealize.ShloMosaic.PureOps.Ideal
import Idealize.ShloMosaic.Lib.ReduceAll
import Idealize.ShloMosaic.Lib.ValueIdx

set_option maxRecDepth 16384

noncomputable section

namespace Cert.KernelIdeal.Finite

open Idealize.ShloMosaic Idealize.ShloMosaic.TcCoe Idealize.SL Idealize.SL.Sem
open Cert.KernelIdeal

/-- A rank-0 shape has exactly one index. -/
instance : Subsingleton Cert.Pre_finite_inputs.S_.Idx := ⟨fun a b => funext fun d => d.elim0⟩

/-- The bit pattern of `+∞` denotes the top element of the extended reals. -/
theorem inf_pattern_eq_top : Ideal.ofBits .f32 0x7F800000#32 = (⊤ : EReal) := by
  simp [Ideal.ofBits, Ideal.ieee]

/-- An extended real whose absolute value `max x (-x)` is strictly below `+∞` is a real number:
    at `⊥` and at `⊤` the absolute value is `⊤` itself, which is not below `⊤`. -/
theorem real_of_abs_lt_inf (x : EReal)
    (hx : Ideal.cmp .olt (max x (-x)) (Ideal.ofBits .f32 0x7F800000#32) = 1#1) : ∃ r : ℝ, x = (r : EReal) := by
  rw [inf_pattern_eq_top] at hx
  induction x using EReal.rec with
  | bot => simp [Ideal.cmp] at hx
  | coe r => exact ⟨r, rfl⟩
  | top => simp [Ideal.cmp] at hx

/-- Under the precondition every entry of the value array is (the coercion of) a real number. -/
theorem finite_of_pre (m : (ℓ : Loc nD τ sig) → Buf (Elt Ideal) ℓ) (h : Cert.Pre_KernelIdeal m) (c : Dev nD)
    (i : S16777216.Idx) :
    ∃ r : ℝ, (m ((c.tc : Thread nD τ).loc main_arg0) : S16777216.Idx → EReal) i = (r : EReal) := by
  -- the predicate's single entry is 1
  have h0 := congrFun (h c) ValueIdx.ix0
  dsimp only [Cert.Pre_finite_inputs.fn] at h0
  -- the first conjunct: the conjunction over the value array of `|x| < +∞`
  have h1 := (IntOp.andi_eq_one.1 (IntOp.andi_eq_one.1 h0).1).1
  -- a conjunction over all entries that is 1 is 1 at entry `i`
  have h2 := Host.reduce_andi_all _ _ _ _ _ h1 i
  exact real_of_abs_lt_inf _ h2

end Cert.KernelIdeal.Finite

end
-- ==== Proof.lean ====
/-
  The certificate's proof: a grouped mean / log-space standard deviation regularizer over sixteen million weighted
  edges in 512 segments, as a one-pass streaming kernel against a two-pass reference.

  The kernel streams the edge values and their segment indices once, over a grid of 2 cores × 32 blocks, each block
  in 32 chunks; per chunk it contracts a one-hot matrix of the indices against seven columns of the values on the
  matrix unit — a column of ones, and the value, `ℓ = log (|x| + ε)` and `ℓ²` each as a high and a low half — and
  accumulates the 7×512 result per core. At the ideal instance a format change is the identity, so each low half is
  `v - v`, which is zero on finite values, and the accumulators hold per segment the count, `Σ x`, `Σ ℓ` and
  `Σ ℓ²`. The epilogue floors the count at one and forms the mean of the values and the variance
  `E[ℓ²] - E[ℓ]²` floored at zero. The reference forms the same count and sums by accumulating scatters (an index
  outside the segments contributes to none, on both sides) and the variance in two passes, as the mean squared
  deviation from the gathered segment mean. Over the reals, for a segment of `n ≥ 1` elements,
  `Σ (ℓ - Σℓ/n)² / n = Σℓ²/n - (Σℓ/n)²`, and this is nonnegative, so the kernel's floor changes nothing; an empty
  segment gives zero on both sides. After the two per-segment vectors both programs apply the same operations.

  The three frames are the generated certificates (the reference's its generated run); `preserves` is the three
  round trips through bf16 the idealization removed; `algebraic` joins the kernel's run with its result named
  (the loop fold, the induction over grid points, the result array, the host tail) to the reference's run read
  per segment, by the finite-input algebra above.
-/
import proofs.«426420_j43104291782998_2_alg».proof.Defs
import proofs.«426420_j43104291782998_2_alg».proof.Proof.Gen.Kernel
import proofs.«426420_j43104291782998_2_alg».proof.Proof.Gen.Kernel.Skeleton
import proofs.«426420_j43104291782998_2_alg».proof.Proof.Gen.Kernel.Loops
import proofs.«426420_j43104291782998_2_alg».proof.Proof.Gen.Kernel.Launch
import proofs.«426420_j43104291782998_2_alg».proof.Proof.Gen.Kernel.Points
import proofs.«426420_j43104291782998_2_alg».proof.Proof.Gen.Kernel.Frame
import proofs.«426420_j43104291782998_2_alg».proof.Proof.Gen.KernelIdeal
import proofs.«426420_j43104291782998_2_alg».proof.Proof.Gen.KernelIdeal.Skeleton
import proofs.«426420_j43104291782998_2_alg».proof.Proof.Gen.KernelIdeal.Loops
import proofs.«426420_j43104291782998_2_alg».proof.Proof.Gen.KernelIdeal.Launch
import proofs.«426420_j43104291782998_2_alg».proof.Proof.Gen.KernelIdeal.Points
import proofs.«426420_j43104291782998_2_alg».proof.Proof.Gen.KernelIdeal.Frame
import proofs.«426420_j43104291782998_2_alg».proof.Proof.Gen.ReferenceIdeal
import proofs.«426420_j43104291782998_2_alg».proof.Proof.Gen.ReferenceIdeal.Run
import proofs.«426420_j43104291782998_2_alg».proof.Proof.Gen.ReferenceIdeal.Read
import proofs.«426420_j43104291782998_2_alg».proof.Proof.Gen.Pre_finite_inputs
import proofs.«426420_j43104291782998_2_alg».proof.Proof.KFinal
import proofs.«426420_j43104291782998_2_alg».proof.Proof.RefRead
import proofs.«426420_j43104291782998_2_alg».proof.Proof.SegAlgebra
import proofs.«426420_j43104291782998_2_alg».proof.Proof.Finite
import Idealize.ShloMosaic.Adequacy
import Idealize.ShloMosaic.Init

noncomputable section

namespace Cert.Proof

open Idealize.ShloMosaic Idealize.ShloMosaic.TcCoe Idealize.SL.Sem Cert.SegSpec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization removed three round trips of an 8192-vector through bf16: the identity at the ideal instance. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end at the shared epilogue of per-segment quantities that agree on finite inputs. -/
theorem algebraic : Cert.algebraic_KernelIdeal_ReferenceIdeal := by
  intro m ρ m' ρ' hpre hagree
  refine ⟨fun c => Cert.KernelIdeal.TailDef.tail (Cert.KernelIdeal.KTail.mwOf (Cert.KernelIdeal.KFinal.Gacc m c))
      (Cert.KernelIdeal.KTail.lvOf (Cert.KernelIdeal.KFinal.Gacc m c))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KFinal.krun m ρ, ?_⟩
  refine (θ_run Cert.ReferenceIdeal.defs _ _).mono (fun _ h c => ⟨(h c).1.trans ?_, (h c).2⟩)
    (Cert.ReferenceIdeal.Value.run (F := Ideal) m' ρ')
  -- every value of the stream is a real number
  have hfin : ∀ n, n < 16777216 → ∃ r : ℝ,
      atE 16777216 (m ((c.tc : Thread Cert.KernelIdeal.nD Cert.KernelIdeal.τ).loc Cert.KernelIdeal.main_arg0)) n = (r : EReal) := by
    intro n hn
    rw [atE, atL_of_lt _ _ _ _ hn]
    exact Cert.KernelIdeal.Finite.finite_of_pre m hpre c _
  rw [Cert.ReferenceIdeal.Read.val_main_v45_eq, (hagree c).1, (hagree c).2.1, (hagree c).2.2.1, (hagree c).2.2.2,
    Cert.ReferenceIdeal.RefRead.ref_tail]
  obtain ⟨G, hG, hlv⟩ := Cert.ReferenceIdeal.RefRead.ref_logvar
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
  have hmw : Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KTail.mwOf (Cert.KernelIdeal.KFinal.Gacc m c) := by
    funext i
    rw [Cert.ReferenceIdeal.RefRead.ref_meanw, Cert.KernelIdeal.KFinal.mwOf_Gacc]
    exact (meanw_eq _ _ hfin (i 0).val (i 0).isLt).symm
  have hlv' : Cert.ReferenceIdeal.Read.val_main_v30 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KTail.lvOf (Cert.KernelIdeal.KFinal.Gacc m c) := by
    funext i
    rw [hlv i, Cert.KernelIdeal.KFinal.lvOf_Gacc]
    exact (logvar_eq _ _ G hfin hG (i 0).val (i 0).isLt).symm
  rw [hmw, hlv']

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
